-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S4x3x512 : Shape := ⟨3, ![4, 3, 512]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x512, .f32⟩
  | .local _ .vmem, ⟨3, _⟩ => ⟨S4x3x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x3x512, .f32⟩
  | .local _ .vmem, ⟨8, _⟩ => ⟨S4x3x512, .f32⟩
  | .local _ .vmem, ⟨9, _⟩ => ⟨S4x3x512, .f32⟩
  | .local _ .vmem, ⟨10, _⟩ => ⟨S4x3x512, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_13 : BitVec 32 := 0#32
  let v56 : BitVec 1 := Scalar.cmpi .ne v55 c0_i32_13
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond3 (i : grid1.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_13 : BitVec 32 := 0#32
  let v56 : BitVec 1 := Scalar.cmpi .ne v55 c0_i32_13
  v56

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x3x512_S4x3x512_0_0_0 : ∀ a, (![0, 0, 0] : Fin 3 → Nat) a + S4x3x512.size a ≤ S4x3x512.size a
  h_S4x3x512 : 0 < S4x3x512.numel
  reduces_S4x3x512_S4x512 : S4x3x512.Reduces [1] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x3x512_o0_0_0_S4x1x512 : S4x3x512.Slices ![0, 0, 0] S4x1x512
  shapeCasts_S4x1x512_S4x512 : S4x1x512.ShapeCasts S4x512
  slices_S4x3x512_o0_1_0_S4x1x512 : S4x3x512.Slices ![0, 1, 0] S4x1x512
  slices_S4x3x512_o0_2_0_S4x1x512 : S4x3x512.Slices ![0, 2, 0] S4x1x512
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reducesTo_S4x8192_S_d0_1 : S4x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x8192.size a
  hwx0_0 : ∀ i : grid0.Coords, EltTy.bits .f32 = 32 ∨ (Rect.block (s := S4x3x8192) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3x512.size a ≤ S4x3x8192.size a
  hwx1_0 : ∀ i : grid1.Coords, EltTy.bits .f32 = 32 ∨ (Rect.block (s := S4x3x8192) S4x3x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x512.size a ≤ S4x3x8192.size a
  hwx1_1 : ∀ i : grid1.Coords, EltTy.bits .f32 = 32 ∨ (Rect.block (s := S4x3x8192) S4x3x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_arg0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg1) S4x3x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x3x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Kernel.Tile0.lean ====
/-
  The kernel body of the first pallas_call at one grid point, run symbolically: what it leaves in the scratch
  (the running minimum over the key tiles seen so far) and, at the last key tile, in the output block's buffer.
-/
import proofs.«160138_j85237920956691_1_alg».proof.Proof.Gen.Kernel.Launch
import proofs.«160138_j85237920956691_1_alg».proof.Proof.Gen.Kernel.Skeleton
import proofs.«160138_j85237920956691_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which key tile a grid point is at

The grid point `(i, j)` pairs query tile `i` with key tile `j`. The body branches three times on `j`,
each condition a scalar chain over the point's second coordinate: `j = 0` (the running minimum is
started), `j ≠ 0` (it is lowered), `j = 15` (it is copied to the output block). -/

/-- `j = 0`, as the kernel computes it. -/
abbrev isFirst (i : grid0.Coords) : Prop := (Scalar.cmpi .ne (Scalar.extui (Scalar.cmpi .eq (BitVec.ofNat 32 (i 1).val) 0#32)) 0#32) = 1#1
/-- `j ≠ 0`, as the kernel computes it. -/
abbrev isLater (i : grid0.Coords) : Prop := (Scalar.cmpi .ne (Scalar.extui (Scalar.cmpi .ne (BitVec.ofNat 32 (i 1).val) 0#32)) 0#32) = 1#1
/-- `j = 15`, as the kernel computes it. -/
abbrev isLast (i : grid0.Coords) : Prop := k0_cond3 i = 1#1

/-- Point `t` of the row-major grid has `j = t mod 16`: the three conditions over the 256 points. -/
theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ ¬ t.val % 16 = 0 :=
  (by decide +kernel : ∀ t : Fin grid0.N, isLater (grid0.coords t) ↔ ¬ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## What a point leaves in the running minimum

`x0` is the query tile, `x1` the key tile. The tile of squared distances is `k0_pay4 x0 x1`; its minimum
along the key axis starts the running minimum at the first key tile and lowers it at every later one. -/

/-- The running minimum after the first key tile. -/
abbrev startMin (x0 x1 : Vec F S4x3x512 .f32) : Vec F S4x512 .f32 := k0_pay2 (k0_pay4 x0 x1)
/-- The running minimum `s` lowered by a later key tile. -/
abbrev lowerMin (x0 x1 : Vec F S4x3x512 .f32) (s : Vec F S4x512 .f32) : Vec F S4x512 .f32 := k0_pay3 (k0_pay4 x0 x1) s

theorem zeros2 : (![0, 0] : Fin S4x512.rank → Nat) = fun _ => 0 := by funext a; fin_cases a <;> rfl
theorem zeros3 : (![0, 0, 0] : Fin S4x3x512.rank → Nat) = fun _ => 0 := by funext a; fin_cases a <;> rfl

/-- One store through the whole-buffer rectangle covers the buffer. -/
theorem wholeCover (p0 : Vec F S4x512 .f32) (y : S4x512.Idx) :
    ∃ pc ∈ ([⟨Rect.unit (s := S4x512) ![0, 0] S4x512.size inb_S4x512_S4x512_0_0, p0⟩] : List (View.Piece (Elt F) S4x512 .f32)), y ∈ pc.1.set :=
  View.cover_of_tiled [⟨Rect.unit (s := S4x512) ![0, 0] S4x512.size inb_S4x512_S4x512_0_0, p0⟩] S4x512.size (by rfl) y

/-! ## The body's three runs -/

set_option maxHeartbeats 2000000 in
/-- At the first key tile the body reads both tiles, stores the tile minimum into the scratch whatever it held,
    and touches nothing else. -/
theorem run_first (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : isFirst i) (h2 : ¬isLater i) (h3 : ¬isLast i)
    (x0 x1 : Vec F S4x3x512 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (startMin x0 x1)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%d5, %f5, -, HS⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg2.read_unread, harg3.read_unread, View.ld_unit_zero (S := S4x3x512) zeros3]

set_option maxHeartbeats 2000000 in
/-- At a later key tile that is not the last the body reads both tiles and the scratch, and stores the lowered
    minimum back into the scratch. -/
theorem run_later (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : ¬isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (lowerMin x0 x1 s)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg5.read_unread, harg2.read_unread, harg3.read_unread, View.ld_unit_zero (S := S4x512) zeros2, View.ld_unit_zero (S := S4x3x512) zeros3]

set_option maxHeartbeats 2000000 in
/-- At the last key tile the body lowers the minimum as at any later tile and then copies the scratch into the
    output block's buffer, whatever that held. -/
theorem run_last (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (lowerMin x0 x1 s)
            ∗ owns (c : Thread nD τ) arg5 fullShare (lowerMin x0 x1 s)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (wholeCover _)]
    rw [View.canon_unit_zero zeros2, View.readCov_unit_zero (S := S4x512) _ zeros2]
    simp only [View.readAt_eq_ld, harg5.read_unread, harg2.read_unread, harg3.read_unread, View.ld_unit_zero (S := S4x512) zeros2, View.ld_unit_zero (S := S4x3x512) zeros3]
  iexists _; isplitr
  swap; · iexact HS
  ipureintro
  sl_unfold_words
  rw [View.read_writes_eq_canon _ _ _ (wholeCover _)]
  rw [View.canon_unit_zero zeros2]
  simp only [View.readAt_eq_ld, harg5.read_unread, harg2.read_unread, harg3.read_unread, View.ld_unit_zero (S := S4x512) zeros2, View.ld_unit_zero (S := S4x3x512) zeros3]

end Cert.Kernel.Tile0

end
-- ==== Proof.Kernel.Scoped0.lean ====
/-
  The scoped buffers the first pallas_call does not stage: its scratch (the running minimum) and the other
  call's buffers. The region's invariant holds them all at some contents; here it is opened around the scratch.
-/
import proofs.«160138_j85237920956691_1_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scratch operand: a whole scoped buffer of the kernel's own. -/
abbrev scM : Memref sig .tc .vmem S4x512 .f32 := Memref.whole cc0_scratch0

/-- The other pallas_call's scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant gives the scratch at some contents, the other scoped buffers, and the generator register. -/
theorem PhiA_open (c : Dev nD) :
    (Pipeline.ΦA spec0 c : sProp 𝕄) ⊢ iprop((∃ d, owns (c : Thread nD τ) scM fullShare d) ∗ others c ∗ (∃ r, prngReg c r)) := by
  unfold Pipeline.ΦA others; rw [scopedRest0_eq]; simp only [scM, owns_whole]
  iintro ⟨⟨Hs, Ho⟩, Hp⟩
  isplitl [Hs]; · iexact Hs
  isplitl [Ho]; · iexact Ho
  iexact Hp

/-- And takes them back, the scratch at whatever it then holds. -/
theorem PhiA_close (c : Dev nD) :
    iprop((∃ d, owns (c : Thread nD τ) scM fullShare d) ∗ others c ∗ (∃ r, prngReg c r)) ⊢ (Pipeline.ΦA spec0 c : sProp 𝕄) := by
  unfold Pipeline.ΦA others; rw [scopedRest0_eq]; simp only [scM, owns_whole]
  iintro ⟨Hs, Ho, Hp⟩
  isplitl [Hs Ho]
  · isplitl [Hs]; · iexact Hs
    iexact Ho
  iexact Hp

end Cert.Kernel.Tile0

end
-- ==== Proof.Kernel.Data0.lean ====
/-
  The first pallas_call's proof data. Point `t = 16·i + j` of the grid pairs query tile `i` with key tile `j`.
  The scratch holds, after point `t`, the minimum over key tiles `0 … j` of the squared distances from the queries
  of tile `i`; the output block of tile `i` is written once, at `j = 15`, with that minimum.
-/
import proofs.«160138_j85237920956691_1_alg».proof.Proof.Kernel.Tile0
import proofs.«160138_j85237920956691_1_alg».proof.Proof.Kernel.Scoped0

set_option maxRecDepth 16384

noncomputable section

namespace Cert.Kernel.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`. -/
abbrev qTile (c : Dev nD) (t : Fin cfg0.N) : Vec F S4x3x512 .f32 := blockAt V c 0 t
abbrev kTile (c : Dev nD) (t : Fin cfg0.N) : Vec F S4x3x512 .f32 := blockAt V c 1 t

/-- An input window's buffer holds its block at every point, fetched there or not (the query tile is fetched only
    when `i` moves; in between its index does not move), for any proof data over `V` whose body leaves it in place. -/
theorem before_q_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_k_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum, point by point -/

/-- What the scratch holds after point `n`: started at every first key tile, lowered at every later one. -/
def minAt (c : Dev nD) : (n : ℕ) → n < cfg0.N → Vec F S4x512 .f32
  | 0, hn => startMin (qTile V c ⟨0, hn⟩) (kTile V c ⟨0, hn⟩)
  | n + 1, hn =>
    if (n + 1) % 16 = 0 then startMin (qTile V c ⟨n + 1, hn⟩) (kTile V c ⟨n + 1, hn⟩)
    else lowerMin (qTile V c ⟨n + 1, hn⟩) (kTile V c ⟨n + 1, hn⟩) (minAt c n (Nat.lt_of_succ_lt hn))

theorem minAt_first (c : Dev nD) (t : Fin cfg0.N) (h : t.val % 16 = 0) :
    minAt V c t.val t.isLt = startMin (qTile V c t) (kTile V c t) := by
  obtain ⟨n, hn⟩ := t
  cases n with
  | zero => rfl
  | succ n => exact if_pos h

theorem minAt_later (c : Dev nD) (t : Fin cfg0.N) (h : ¬t.val % 16 = 0) :
    minAt V c t.val t.isLt = lowerMin (qTile V c t) (kTile V c t) (minAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- Before point `n`: at the first point the scoped rest at anything; afterwards the scratch at what point `n - 1`
    left, the other scoped buffers at anything, the generator register at some state. -/
def Phi (c : Dev nD) : (n : ℕ) → n ≤ cfg0.N → sProp 𝕄
  | 0, _ => Pipeline.ΦA spec0 c
  | n + 1, hn => iprop(owns (c : Thread nD τ) scM fullShare (minAt V c n hn) ∗ others c ∗ (∃ r, prngReg c r))

theorem Phi_succ (c : Dev nD) (n : ℕ) (hn : n < cfg0.N) :
    Phi V c (n + 1) hn = iprop(owns (c : Thread nD τ) scM fullShare (minAt V c n hn) ∗ others c ∗ (∃ r, prngReg c r)) := rfl

theorem Phi_pos (c : Dev nD) (n : ℕ) (h : n ≤ cfg0.N) (hz : n ≠ 0) :
    Phi V c n h = iprop(owns (c : Thread nD τ) scM fullShare (minAt V c (n - 1) (by omega)) ∗ others c ∗ (∃ r, prngReg c r)) := by
  cases n with
  | zero => exact absurd rfl hz
  | succ n => rfl

/-- At any point the invariant holds the scratch at SOME contents. -/
theorem Phi_any (c : Dev nD) (n : ℕ) (h : n ≤ cfg0.N) :
    Phi V c n h ⊢ iprop((∃ d, owns (c : Thread nD τ) scM fullShare d) ∗ others c ∗ (∃ r, prngReg c r)) := by
  cases n with
  | zero => exact PhiA_open c
  | succ n =>
    rw [Phi_succ]
    iintro ⟨Hs, Ho, Hp⟩
    isplitl [Hs]; · iexists _; iexact Hs
    isplitl [Ho]; · iexact Ho
    iexact Hp

/-! ## The proof data -/

/-- The arrays as the region finds them; after the body each input's buffer at its tile and the output's at the
    running minimum (read only where the block is written back, at the last key tile); the invariant `Phi`;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => minAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_q (c : Dev nD) (t : Fin cfg0.N) : (dat V c).after 0 t = blockAt V c 0 t := by dsimp only [dat]
theorem after_k (c : Dev nD) (t : Fin cfg0.N) : (dat V c).after 1 t = blockAt V c 1 t := by dsimp only [dat]
theorem after_out (c : Dev nD) (t : Fin cfg0.N) : (dat V c).after 2 t = minAt V c t.val t.isLt := by dsimp only [dat]

theorem before_q (c : Dev nD) (t : Fin cfg0.N) (d) : (dat V c).before 0 t d = qTile V c t :=
  before_q_of V (dat V c) (A_eq V c 0) (after_q V c) t d
theorem before_k (c : Dev nD) (t : Fin cfg0.N) (d) : (dat V c).before 1 t d = kTile V c t :=
  before_k_of V (dat V c) (A_eq V c 1) (after_k V c) t d

theorem Phi_castSucc (c : Dev nD) (t : Fin cfg0.N) :
    (dat V c).Φ t.castSucc = Phi V c t.val (Nat.le_of_lt t.isLt) := by
  dsimp only [dat]; simp only [Fin.coe_castSucc]

/-! ## Where the output window is idle -/

theorem inLive_q : ∀ t : Fin cfg0.N, cfg0.idle 0 (grid0.coords t) = false := fun _ => rfl
theorem inLive_k : ∀ t : Fin cfg0.N, cfg0.idle 1 (grid0.coords t) = false := fun _ => rfl
/-- Before the last key tile the body stores nothing into the output block's buffer, and the block is not written back. -/
theorem outIdle : ∀ t : Fin cfg0.N, ¬isLast (grid0.coords t) → cfg0.idle 2 (grid0.coords t) = true := by decide +kernel
theorem outKept : ∀ t : Fin cfg0.N, ¬isLast (grid0.coords t) → (cfg0.win 2).flush t = false := by decide +kernel
/-- At the last key tile it stores the block. -/
theorem outLive : ∀ t : Fin cfg0.N, isLast (grid0.coords t) → cfg0.idle 2 (grid0.coords t) = false := by decide +kernel

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the key tile it is at: the inputs' buffers hold their tiles; the invariant hands the
    body the scratch (at anything before a first key tile, at the running minimum before a later one) and takes it back
    at this point's minimum; the output's buffer comes back untouched before the last key tile and at the minimum at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_k]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st0_0 t) fullShare ((dat V c).after 0 t) from by
    unfold Dat.leavesExact; rw [inLive_q t], after_q]
  rw [show (dat V c).leavesExact 1 t = owns (c : Thread nD τ) (st0_1 t) fullShare ((dat V c).after 1 t) from by
    unfold Dat.leavesExact; rw [inLive_k t], after_k]
  have hN : t.val < 256 := lt_of_lt_of_eq t.isLt (show cfg0.N = 256 from N_0)
  by_cases h0 : t.val % 16 = 0
  · -- the first key tile of a row
    have h1 : isFirst (grid0.coords t) := (isFirst_iff t).mpr h0
    have h2 : ¬isLater (grid0.coords t) := fun h => (isLater_iff t).mp h h0
    have h3 : ¬isLast (grid0.coords t) := fun h => by have := (isLast_iff t).mp h; omega
    rw [Dat.leavesExact_idle (dat V c) 2 t (outIdle t h3) (outKept t h3), minAt_first V c t h0]
    iintro ⟨HΦ, Ho, ⟨%d0, H0⟩, ⟨%d1, H1⟩, H2⟩
    ihave HΦ' := (Phi_any V c _ _) $$ HΦ
    icases HΦ' with ⟨HS, Hoth, Hg⟩
    iapply (run_first c (grid0.coords t) _ _ _ _ _ _ _ _ h1 h2 h3 (qTile V c t) (kTile V c t) Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hz : t.val ≠ 0 := fun h => h0 (by rw [h])
    have h1 : ¬isFirst (grid0.coords t) := fun h => h0 ((isFirst_iff t).mp h)
    have h2 : isLater (grid0.coords t) := (isLater_iff t).mpr h0
    rw [Phi_pos V c _ _ hz, minAt_later V c t h0]
    by_cases h15 : t.val % 16 = 15
    · -- the last key tile: the block is stored
      have h3 : isLast (grid0.coords t) := (isLast_iff t).mpr h15
      rw [show (dat V c).leavesExact 2 t = owns (c : Thread nD τ) (st0_2 t) fullShare ((dat V c).after 2 t) from by
        unfold Dat.leavesExact; rw [outLive t h3], after_out, minAt_later V c t h0]
      iintro ⟨⟨HS, Hoth, Hg⟩, Ho, ⟨%d0, H0⟩, ⟨%d1, H1⟩, ⟨%d2, H2⟩⟩
      iapply (run_last c (grid0.coords t) _ _ _ _ _ _ _ _ h1 h2 h3 (qTile V c t) (kTile V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · -- a key tile strictly between
      have h3 : ¬isLast (grid0.coords t) := fun h => h15 ((isLast_iff t).mp h)
      rw [Dat.leavesExact_idle (dat V c) 2 t (outIdle t h3) (outKept t h3)]
      iintro ⟨⟨HS, Hoth, Hg⟩, Ho, ⟨%d0, H0⟩, ⟨%d1, H1⟩, H2⟩
      iapply (run_later c (grid0.coords t) _ _ _ _ _ _ _ _ h1 h2 h3 (qTile V c t) (kTile V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the scoped rest back, the scratch's contents forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl]
  exact (Phi_any V c _ _).trans (PhiA_close c)

end Cert.Kernel.Tile0

end
-- ==== Proof.Kernel.Tile1.lean ====
/-
  The kernel body of the second pallas_call at one grid point, run symbolically: what it leaves in the scratch
  (the running minimum over the key tiles seen so far) and, at the last key tile, in the output block's buffer.
-/
import proofs.«160138_j85237920956691_1_alg».proof.Proof.Gen.Kernel.Launch
import proofs.«160138_j85237920956691_1_alg».proof.Proof.Gen.Kernel.Skeleton
import proofs.«160138_j85237920956691_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which key tile a grid point is at

The grid point `(i, j)` pairs query tile `i` with key tile `j`. The body branches three times on `j`,
each condition a scalar chain over the point's second coordinate: `j = 0` (the running minimum is
started), `j ≠ 0` (it is lowered), `j = 15` (it is copied to the output block). -/

/-- `j = 0`, as the kernel computes it. -/
abbrev isFirst (i : grid1.Coords) : Prop := (Scalar.cmpi .ne (Scalar.extui (Scalar.cmpi .eq (BitVec.ofNat 32 (i 1).val) 0#32)) 0#32) = 1#1
/-- `j ≠ 0`, as the kernel computes it. -/
abbrev isLater (i : grid1.Coords) : Prop := (Scalar.cmpi .ne (Scalar.extui (Scalar.cmpi .ne (BitVec.ofNat 32 (i 1).val) 0#32)) 0#32) = 1#1
/-- `j = 15`, as the kernel computes it. -/
abbrev isLast (i : grid1.Coords) : Prop := k1_cond3 i = 1#1

/-- Point `t` of the row-major grid has `j = t mod 16`: the three conditions over the 256 points. -/
theorem isFirst_iff : ∀ t : Fin cfg1.N, isFirst (grid1.coords t) ↔ t.val % 16 = 0 :=
  (by decide +kernel : ∀ t : Fin grid1.N, isFirst (grid1.coords t) ↔ t.val % 16 = 0)
theorem isLater_iff : ∀ t : Fin cfg1.N, isLater (grid1.coords t) ↔ ¬ t.val % 16 = 0 :=
  (by decide +kernel : ∀ t : Fin grid1.N, isLater (grid1.coords t) ↔ ¬ t.val % 16 = 0)
theorem isLast_iff : ∀ t : Fin cfg1.N, isLast (grid1.coords t) ↔ t.val % 16 = 15 :=
  (by decide +kernel : ∀ t : Fin grid1.N, isLast (grid1.coords t) ↔ t.val % 16 = 15)

/-! ## What a point leaves in the running minimum

`x0` is the query tile, `x1` the key tile. The tile of squared distances is `k1_pay4 x0 x1`; its minimum
along the key axis starts the running minimum at the first key tile and lowers it at every later one. -/

/-- The running minimum after the first key tile. -/
abbrev startMin (x0 x1 : Vec F S4x3x512 .f32) : Vec F S4x512 .f32 := k1_pay2 (k1_pay4 x0 x1)
/-- The running minimum `s` lowered by a later key tile. -/
abbrev lowerMin (x0 x1 : Vec F S4x3x512 .f32) (s : Vec F S4x512 .f32) : Vec F S4x512 .f32 := k1_pay3 (k1_pay4 x0 x1) s

theorem zeros2 : (![0, 0] : Fin S4x512.rank → Nat) = fun _ => 0 := by funext a; fin_cases a <;> rfl
theorem zeros3 : (![0, 0, 0] : Fin S4x3x512.rank → Nat) = fun _ => 0 := by funext a; fin_cases a <;> rfl

/-- One store through the whole-buffer rectangle covers the buffer. -/
theorem wholeCover (p0 : Vec F S4x512 .f32) (y : S4x512.Idx) :
    ∃ pc ∈ ([⟨Rect.unit (s := S4x512) ![0, 0] S4x512.size inb_S4x512_S4x512_0_0, p0⟩] : List (View.Piece (Elt F) S4x512 .f32)), y ∈ pc.1.set :=
  View.cover_of_tiled [⟨Rect.unit (s := S4x512) ![0, 0] S4x512.size inb_S4x512_S4x512_0_0, p0⟩] S4x512.size (by rfl) y

/-! ## The body's three runs -/

set_option maxHeartbeats 2000000 in
/-- At the first key tile the body reads both tiles, stores the tile minimum into the scratch whatever it held,
    and touches nothing else. -/
theorem run_first (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : isFirst i) (h2 : ¬isLater i) (h3 : ¬isLast i)
    (x0 x1 : Vec F S4x3x512 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (startMin x0 x1)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%d5, %f5, -, HS⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg2.read_unread, harg3.read_unread, View.ld_unit_zero (S := S4x3x512) zeros3]

set_option maxHeartbeats 2000000 in
/-- At a later key tile that is not the last the body reads both tiles and the scratch, and stores the lowered
    minimum back into the scratch. -/
theorem run_later (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : ¬isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (lowerMin x0 x1 s)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg5.read_unread, harg2.read_unread, harg3.read_unread, View.ld_unit_zero (S := S4x512) zeros2, View.ld_unit_zero (S := S4x3x512) zeros3]

set_option maxHeartbeats 2000000 in
/-- At the last key tile the body lowers the minimum as at any later tile and then copies the scratch into the
    output block's buffer, whatever that held. -/
theorem run_last (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (lowerMin x0 x1 s)
            ∗ owns (c : Thread nD τ) arg5 fullShare (lowerMin x0 x1 s)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (wholeCover _)]
    rw [View.canon_unit_zero zeros2, View.readCov_unit_zero (S := S4x512) _ zeros2]
    simp only [View.readAt_eq_ld, harg5.read_unread, harg2.read_unread, harg3.read_unread, View.ld_unit_zero (S := S4x512) zeros2, View.ld_unit_zero (S := S4x3x512) zeros3]
  iexists _; isplitr
  swap; · iexact HS
  ipureintro
  sl_unfold_words
  rw [View.read_writes_eq_canon _ _ _ (wholeCover _)]
  rw [View.canon_unit_zero zeros2]
  simp only [View.readAt_eq_ld, harg5.read_unread, harg2.read_unread, harg3.read_unread, View.ld_unit_zero (S := S4x512) zeros2, View.ld_unit_zero (S := S4x3x512) zeros3]

end Cert.Kernel.Tile1

end
-- ==== Proof.Kernel.Scoped1.lean ====
/-
  The scoped buffers the second pallas_call does not stage: the other call's buffers and its own scratch (the
  running minimum), which the signature lists last. The region's invariant holds them all at some contents; here
  it is opened around the scratch.
-/
import proofs.«160138_j85237920956691_1_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scratch operand: a whole scoped buffer of the kernel's own. -/
abbrev scM : Memref sig .tc .vmem S4x512 .f32 := Memref.whole cc1_scratch0

/-- The other pallas_call's scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's invariant gives the scratch at some contents, the other scoped buffers, and the generator register. -/
theorem PhiA_open (c : Dev nD) :
    (Pipeline.ΦA spec1 c : sProp 𝕄) ⊢ iprop((∃ d, owns (c : Thread nD τ) scM fullShare d) ∗ others c ∗ (∃ r, prngReg c r)) := by
  unfold Pipeline.ΦA others; rw [scopedRest1_eq]; simp only [scM, owns_whole]
  iintro ⟨⟨H0, H1, H2, H3, H4, H5, H6, Hs⟩, Hp⟩
  isplitl [Hs]; · iexact Hs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact Hp

/-- And takes them back, the scratch at whatever it then holds. -/
theorem PhiA_close (c : Dev nD) :
    iprop((∃ d, owns (c : Thread nD τ) scM fullShare d) ∗ others c ∗ (∃ r, prngReg c r)) ⊢ (Pipeline.ΦA spec1 c : sProp 𝕄) := by
  unfold Pipeline.ΦA others; rw [scopedRest1_eq]; simp only [scM, owns_whole]
  iintro ⟨Hs, ⟨H0, H1, H2, H3, H4, H5, H6⟩, Hp⟩
  isplitl [Hs H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iexact Hp

end Cert.Kernel.Tile1

end
-- ==== Proof.Kernel.Data1.lean ====
/-
  The second pallas_call's proof data. Point `t = 16·i + j` of the grid pairs query tile `i` with key tile `j`.
  The scratch holds, after point `t`, the minimum over key tiles `0 … j` of the squared distances from the queries
  of tile `i`; the output block of tile `i` is written once, at `j = 15`, with that minimum.
-/
import proofs.«160138_j85237920956691_1_alg».proof.Proof.Kernel.Tile1
import proofs.«160138_j85237920956691_1_alg».proof.Proof.Kernel.Scoped1

set_option maxRecDepth 16384

noncomputable section

namespace Cert.Kernel.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`. -/
abbrev qTile (c : Dev nD) (t : Fin cfg1.N) : Vec F S4x3x512 .f32 := blockAt V c 0 t
abbrev kTile (c : Dev nD) (t : Fin cfg1.N) : Vec F S4x3x512 .f32 := blockAt V c 1 t

/-- An input window's buffer holds its block at every point, fetched there or not (the query tile is fetched only
    when `i` moves; in between its index does not move), for any proof data over `V` whose body leaves it in place. -/
theorem before_q_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_k_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum, point by point -/

/-- What the scratch holds after point `n`: started at every first key tile, lowered at every later one. -/
def minAt (c : Dev nD) : (n : ℕ) → n < cfg1.N → Vec F S4x512 .f32
  | 0, hn => startMin (qTile V c ⟨0, hn⟩) (kTile V c ⟨0, hn⟩)
  | n + 1, hn =>
    if (n + 1) % 16 = 0 then startMin (qTile V c ⟨n + 1, hn⟩) (kTile V c ⟨n + 1, hn⟩)
    else lowerMin (qTile V c ⟨n + 1, hn⟩) (kTile V c ⟨n + 1, hn⟩) (minAt c n (Nat.lt_of_succ_lt hn))

theorem minAt_first (c : Dev nD) (t : Fin cfg1.N) (h : t.val % 16 = 0) :
    minAt V c t.val t.isLt = startMin (qTile V c t) (kTile V c t) := by
  obtain ⟨n, hn⟩ := t
  cases n with
  | zero => rfl
  | succ n => exact if_pos h

theorem minAt_later (c : Dev nD) (t : Fin cfg1.N) (h : ¬t.val % 16 = 0) :
    minAt V c t.val t.isLt = lowerMin (qTile V c t) (kTile V c t) (minAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- Before point `n`: at the first point the scoped rest at anything; afterwards the scratch at what point `n - 1`
    left, the other scoped buffers at anything, the generator register at some state. -/
def Phi (c : Dev nD) : (n : ℕ) → n ≤ cfg1.N → sProp 𝕄
  | 0, _ => Pipeline.ΦA spec1 c
  | n + 1, hn => iprop(owns (c : Thread nD τ) scM fullShare (minAt V c n hn) ∗ others c ∗ (∃ r, prngReg c r))

theorem Phi_succ (c : Dev nD) (n : ℕ) (hn : n < cfg1.N) :
    Phi V c (n + 1) hn = iprop(owns (c : Thread nD τ) scM fullShare (minAt V c n hn) ∗ others c ∗ (∃ r, prngReg c r)) := rfl

theorem Phi_pos (c : Dev nD) (n : ℕ) (h : n ≤ cfg1.N) (hz : n ≠ 0) :
    Phi V c n h = iprop(owns (c : Thread nD τ) scM fullShare (minAt V c (n - 1) (by omega)) ∗ others c ∗ (∃ r, prngReg c r)) := by
  cases n with
  | zero => exact absurd rfl hz
  | succ n => rfl

/-- At any point the invariant holds the scratch at SOME contents. -/
theorem Phi_any (c : Dev nD) (n : ℕ) (h : n ≤ cfg1.N) :
    Phi V c n h ⊢ iprop((∃ d, owns (c : Thread nD τ) scM fullShare d) ∗ others c ∗ (∃ r, prngReg c r)) := by
  cases n with
  | zero => exact PhiA_open c
  | succ n =>
    rw [Phi_succ]
    iintro ⟨Hs, Ho, Hp⟩
    isplitl [Hs]; · iexists _; iexact Hs
    isplitl [Ho]; · iexact Ho
    iexact Hp

/-! ## The proof data -/

/-- The arrays as the region finds them; after the body each input's buffer at its tile and the output's at the
    running minimum (read only where the block is written back, at the last key tile); the invariant `Phi`;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => minAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_out (c : Dev nD) (t : Fin cfg1.N) : (dat V c).after 2 t = minAt V c t.val t.isLt := by dsimp only [dat]

theorem before_q (c : Dev nD) (t : Fin cfg1.N) (d) : (dat V c).before 0 t d = qTile V c t :=
  before_q_of V (dat V c) (A_eq V c 0) (after_q V c) t d
theorem before_k (c : Dev nD) (t : Fin cfg1.N) (d) : (dat V c).before 1 t d = kTile V c t :=
  before_k_of V (dat V c) (A_eq V c 1) (after_k V c) t d

theorem Phi_castSucc (c : Dev nD) (t : Fin cfg1.N) :
    (dat V c).Φ t.castSucc = Phi V c t.val (Nat.le_of_lt t.isLt) := by
  dsimp only [dat]; simp only [Fin.coe_castSucc]

/-! ## Where the output window is idle -/

theorem inLive_q : ∀ t : Fin cfg1.N, cfg1.idle 0 (grid1.coords t) = false := fun _ => rfl
theorem inLive_k : ∀ t : Fin cfg1.N, cfg1.idle 1 (grid1.coords t) = false := fun _ => rfl
/-- Before the last key tile the body stores nothing into the output block's buffer, and the block is not written back. -/
theorem outIdle : ∀ t : Fin cfg1.N, ¬isLast (grid1.coords t) → cfg1.idle 2 (grid1.coords t) = true := by decide +kernel
theorem outKept : ∀ t : Fin cfg1.N, ¬isLast (grid1.coords t) → (cfg1.win 2).flush t = false := by decide +kernel
/-- At the last key tile it stores the block. -/
theorem outLive : ∀ t : Fin cfg1.N, isLast (grid1.coords t) → cfg1.idle 2 (grid1.coords t) = false := by decide +kernel

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the key tile it is at: the inputs' buffers hold their tiles; the invariant hands the
    body the scratch (at anything before a first key tile, at the running minimum before a later one) and takes it back
    at this point's minimum; the output's buffer comes back untouched before the last key tile and at the minimum at it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st1_0 t) fullShare ((dat V c).after 0 t) from by
    unfold Dat.leavesExact; rw [inLive_q t], after_q]
  rw [show (dat V c).leavesExact 1 t = owns (c : Thread nD τ) (st1_1 t) fullShare ((dat V c).after 1 t) from by
    unfold Dat.leavesExact; rw [inLive_k t], after_k]
  have hN : t.val < 256 := lt_of_lt_of_eq t.isLt (show cfg1.N = 256 from N_1)
  by_cases h0 : t.val % 16 = 0
  · -- the first key tile of a row
    have h1 : isFirst (grid1.coords t) := (isFirst_iff t).mpr h0
    have h2 : ¬isLater (grid1.coords t) := fun h => (isLater_iff t).mp h h0
    have h3 : ¬isLast (grid1.coords t) := fun h => by have := (isLast_iff t).mp h; omega
    rw [Dat.leavesExact_idle (dat V c) 2 t (outIdle t h3) (outKept t h3), minAt_first V c t h0]
    iintro ⟨HΦ, Ho, ⟨%d0, H0⟩, ⟨%d1, H1⟩, H2⟩
    ihave HΦ' := (Phi_any V c _ _) $$ HΦ
    icases HΦ' with ⟨HS, Hoth, Hg⟩
    iapply (run_first c (grid1.coords t) _ _ _ _ _ _ _ _ h1 h2 h3 (qTile V c t) (kTile V c t) Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hz : t.val ≠ 0 := fun h => h0 (by rw [h])
    have h1 : ¬isFirst (grid1.coords t) := fun h => h0 ((isFirst_iff t).mp h)
    have h2 : isLater (grid1.coords t) := (isLater_iff t).mpr h0
    rw [Phi_pos V c _ _ hz, minAt_later V c t h0]
    by_cases h15 : t.val % 16 = 15
    · -- the last key tile: the block is stored
      have h3 : isLast (grid1.coords t) := (isLast_iff t).mpr h15
      rw [show (dat V c).leavesExact 2 t = owns (c : Thread nD τ) (st1_2 t) fullShare ((dat V c).after 2 t) from by
        unfold Dat.leavesExact; rw [outLive t h3], after_out, minAt_later V c t h0]
      iintro ⟨⟨HS, Hoth, Hg⟩, Ho, ⟨%d0, H0⟩, ⟨%d1, H1⟩, ⟨%d2, H2⟩⟩
      iapply (run_last c (grid1.coords t) _ _ _ _ _ _ _ _ h1 h2 h3 (qTile V c t) (kTile V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · -- a key tile strictly between
      have h3 : ¬isLast (grid1.coords t) := fun h => h15 ((isLast_iff t).mp h)
      rw [Dat.leavesExact_idle (dat V c) 2 t (outIdle t h3) (outKept t h3)]
      iintro ⟨⟨HS, Hoth, Hg⟩, Ho, ⟨%d0, H0⟩, ⟨%d1, H1⟩, H2⟩
      iapply (run_later c (grid1.coords t) _ _ _ _ _ _ _ _ h1 h2 h3 (qTile V c t) (kTile V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Pipeline.ΦA spec1 c from rfl]

/-- After the last point the invariant gives the scoped rest back, the scratch's contents forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_close c)

end Cert.Kernel.Tile1

end
-- ==== Proof.Kernel.Whole.lean ====
/-
  The whole run of the program: the first pallas_call, the second, then the host operations that average each
  result and add the averages. Between the items every unscoped buffer of the core is held at named contents; at the
  end each is read back, which gives both that the arguments are unchanged and what the result buffer holds.
-/
import proofs.«160138_j85237920956691_1_alg».proof.Proof.Kernel.Data0
import proofs.«160138_j85237920956691_1_alg».proof.Proof.Kernel.Data1
import proofs.«160138_j85237920956691_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the first pallas_call: its arrays at what the pipeline leaves (the inputs as entered, the output's write-backs
    folded), every other buffer as entered. -/
def W1 (c : Dev nD) : Valuation τ sig (Elt F) :=
  Pipeline.withArrays spec0 c (W0 m c) fun w => (Tile0.dat (V0 m) c).arrAt w cfg0.N
theorem W1_arr (c : Dev nD) (w : Fin cfg0.W) :
    W1 m c (Proc.devRef .tc (Pipeline.arrRef spec0 w)) = (Tile0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem exit0_arr (c : Dev nD) (w : Fin cfg0.W) : (Tile0.dat (V0 m) c).arrAt w cfg0.N = V1 m c (Pipeline.arrRef spec0 w) :=
  (W1_arr m c w).symm
theorem exit0_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call: its arrays at what the pipeline leaves (the inputs as entered, the output's write-backs
    folded), every other buffer as entered. -/
def W2 (c : Dev nD) : Valuation τ sig (Elt F) :=
  Pipeline.withArrays spec1 c (W1 m c) fun w => (Tile1.dat (V1 m) c).arrAt w cfg1.N
theorem W2_arr (c : Dev nD) (w : Fin cfg1.W) :
    W2 m c (Proc.devRef .tc (Pipeline.arrRef spec1 w)) = (Tile1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem exit1_arr (c : Dev nD) (w : Fin cfg1.W) : (Tile1.dat (V1 m) c).arrAt w cfg1.N = V2 m c (Pipeline.arrRef spec1 w) :=
  (W2_arr m c w).symm
theorem exit1_rest (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and what rides beside the buffers -/

/-- No pallas_call has a prefetched table. -/
abbrev adm : (p : Fin 2) → (pcfgs (F := F) p).Adm := fun p => (cfgs p).toPCfg_adm
/-- Each pallas_call's proof data at its region's entry contents. -/
def pdats : (p : Fin 2) → (c : Dev nD) → Dat τ (Elt F) Unit ℕ (UR sig nD τ) ℕ (Pipeline.pin (pcfgs (F := F)) adm p) c
  | ⟨0, _⟩ => fun c => Tile0.dat (V0 m) c
  | ⟨1, _⟩ => fun c => Tile1.dat (V1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The host operations as a segment from the contents `W2`. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the `owes`. -/
abbrev Tₙ (c : Dev nD) : sProp 𝕄 := iprop(StableHlo.held (c : Thread nD τ) (Pipeline.ucRefs τ sig) (W3 m c) ∗ ∃ r, prngReg c r)

/-! ## The pallas_calls as segments -/

-- unification of the library's lemmas, stated over the pinned configuration, with the printed one unfolds plain
-- definitions in a metavariable's type
set_option backward.isDefEq.respectTransparency.types false in
/-- The first pallas_call as a segment of @main: entered with every unscoped buffer at `W0`, left with them at `W1`.
    Its three arrays are split out of the unscoped buffers on the way in and put back, the output at what the write-backs
    left, on the way out; the generator register passes through the invariant; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Tile0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m 0 c).Φ (Fin.last _)
        ⊢ iprop(Pipeline.scopedRest (Ix := Unit) (Name := ℕ) (U := UR sig nD τ) (Lvl := ℕ) (Val := Elt F) spec0 c ∗ ∃ r, prngReg c r) :=
      Tile0.hout (V0 m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with the printed one unfolds plain
-- definitions in a metavariable's type
set_option backward.isDefEq.respectTransparency.types false in
/-- The second pallas_call as a segment of @main: entered with every unscoped buffer at `W1`, left with them at `W2`.
    Its three arrays are split out of the unscoped buffers on the way in and put back, the output at what the write-backs
    left, on the way out; the generator register passes through the invariant; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Tile1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _)
        ⊢ iprop(Pipeline.scopedRest (Ix := Unit) (Name := ℕ) (U := UR sig nD τ) (Lvl := ℕ) (Val := Elt F) spec1 c ∗ ∃ r, prngReg c r) :=
      Tile1.hout (V1 m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main, and the launch -/

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

set_option backward.isDefEq.respectTransparency.types false in
/-- Every weakly fair execution of @main terminates, nothing faulting, and every final memory holds each unscoped
    buffer of each core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      change iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## The arguments end as launched -/

/-- No host operation writes an argument, and each pallas_call only reads it through an input window. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Tile1.dat (V1 m) c).arrAt_in 1 rfl _).trans (Tile1.A_eq (V1 m) c 1))
    _ = W0 m c (Proc.devRef .tc main_arg0) := (W1_arr m c 0).trans (((Tile0.dat (V0 m) c).arrAt_in 0 rfl _).trans (Tile0.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Tile1.dat (V1 m) c).arrAt_in 0 rfl _).trans (Tile1.A_eq (V1 m) c 0))
    _ = W0 m c (Proc.devRef .tc main_arg1) := (W1_arr m c 1).trans (((Tile0.dat (V0 m) c).arrAt_in 1 rfl _).trans (Tile0.A_eq (V0 m) c 1))
    _ = m ((c : Thread nD τ).loc main_arg1) := rfl

/-- The frame: the run terminates, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.Kernel.Whole

end
-- ==== Proof.KernelIdeal.Tile0.lean ====
/-
  The kernel body of the first pallas_call at one grid point, run symbolically: what it leaves in the scratch
  (the running minimum over the key tiles seen so far) and, at the last key tile, in the output block's buffer.
-/
import proofs.«160138_j85237920956691_1_alg».proof.Proof.Gen.KernelIdeal.Launch
import proofs.«160138_j85237920956691_1_alg».proof.Proof.Gen.KernelIdeal.Skeleton
import proofs.«160138_j85237920956691_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which key tile a grid point is at

The grid point `(i, j)` pairs query tile `i` with key tile `j`. The body branches three times on `j`,
each condition a scalar chain over the point's second coordinate: `j = 0` (the running minimum is
started), `j ≠ 0` (it is lowered), `j = 15` (it is copied to the output block). -/

/-- `j = 0`, as the kernel computes it. -/
abbrev isFirst (i : grid0.Coords) : Prop := (Scalar.cmpi .ne (Scalar.extui (Scalar.cmpi .eq (BitVec.ofNat 32 (i 1).val) 0#32)) 0#32) = 1#1
/-- `j ≠ 0`, as the kernel computes it. -/
abbrev isLater (i : grid0.Coords) : Prop := (Scalar.cmpi .ne (Scalar.extui (Scalar.cmpi .ne (BitVec.ofNat 32 (i 1).val) 0#32)) 0#32) = 1#1
/-- `j = 15`, as the kernel computes it. -/
abbrev isLast (i : grid0.Coords) : Prop := k0_cond3 i = 1#1

/-- Point `t` of the row-major grid has `j = t mod 16`: the three conditions over the 256 points. -/
theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ ¬ t.val % 16 = 0 :=
  (by decide +kernel : ∀ t : Fin grid0.N, isLater (grid0.coords t) ↔ ¬ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## What a point leaves in the running minimum

`x0` is the query tile, `x1` the key tile. The tile of squared distances is `k0_pay4 x0 x1`; its minimum
along the key axis starts the running minimum at the first key tile and lowers it at every later one. -/

/-- The running minimum after the first key tile. -/
abbrev startMin (x0 x1 : Vec F S4x3x512 .f32) : Vec F S4x512 .f32 := k0_pay2 (k0_pay4 x0 x1)
/-- The running minimum `s` lowered by a later key tile. -/
abbrev lowerMin (x0 x1 : Vec F S4x3x512 .f32) (s : Vec F S4x512 .f32) : Vec F S4x512 .f32 := k0_pay3 (k0_pay4 x0 x1) s

theorem zeros2 : (![0, 0] : Fin S4x512.rank → Nat) = fun _ => 0 := by funext a; fin_cases a <;> rfl
theorem zeros3 : (![0, 0, 0] : Fin S4x3x512.rank → Nat) = fun _ => 0 := by funext a; fin_cases a <;> rfl

/-- One store through the whole-buffer rectangle covers the buffer. -/
theorem wholeCover (p0 : Vec F S4x512 .f32) (y : S4x512.Idx) :
    ∃ pc ∈ ([⟨Rect.unit (s := S4x512) ![0, 0] S4x512.size inb_S4x512_S4x512_0_0, p0⟩] : List (View.Piece (Elt F) S4x512 .f32)), y ∈ pc.1.set :=
  View.cover_of_tiled [⟨Rect.unit (s := S4x512) ![0, 0] S4x512.size inb_S4x512_S4x512_0_0, p0⟩] S4x512.size (by rfl) y

/-! ## The body's three runs -/

set_option maxHeartbeats 2000000 in
/-- At the first key tile the body reads both tiles, stores the tile minimum into the scratch whatever it held,
    and touches nothing else. -/
theorem run_first (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : isFirst i) (h2 : ¬isLater i) (h3 : ¬isLast i)
    (x0 x1 : Vec F S4x3x512 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (startMin x0 x1)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%d5, %f5, -, HS⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg2.read_unread, harg3.read_unread, View.ld_unit_zero (S := S4x3x512) zeros3]

set_option maxHeartbeats 2000000 in
/-- At a later key tile that is not the last the body reads both tiles and the scratch, and stores the lowered
    minimum back into the scratch. -/
theorem run_later (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : ¬isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (lowerMin x0 x1 s)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg5.read_unread, harg2.read_unread, harg3.read_unread, View.ld_unit_zero (S := S4x512) zeros2, View.ld_unit_zero (S := S4x3x512) zeros3]

set_option maxHeartbeats 2000000 in
/-- At the last key tile the body lowers the minimum as at any later tile and then copies the scratch into the
    output block's buffer, whatever that held. -/
theorem run_last (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (lowerMin x0 x1 s)
            ∗ owns (c : Thread nD τ) arg5 fullShare (lowerMin x0 x1 s)) -∗ K ⟨⟩))
      ⊢ wp frame (wpE (defs₀ (F := F)) Variants.none c none) E (cc0__mindist_kernel i arg2 harg2 arg3 harg3 arg4 harg4 arg5 harg5) K := by
  simp only [cc0__mindist_kernel_eq_skeleton]; unfold cc0__mindist_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (wholeCover _)]
    rw [View.canon_unit_zero zeros2, View.readCov_unit_zero (S := S4x512) _ zeros2]
    simp only [View.readAt_eq_ld, harg5.read_unread, harg2.read_unread, harg3.read_unread, View.ld_unit_zero (S := S4x512) zeros2, View.ld_unit_zero (S := S4x3x512) zeros3]
  iexists _; isplitr
  swap; · iexact HS
  ipureintro
  sl_unfold_words
  rw [View.read_writes_eq_canon _ _ _ (wholeCover _)]
  rw [View.canon_unit_zero zeros2]
  simp only [View.readAt_eq_ld, harg5.read_unread, harg2.read_unread, harg3.read_unread, View.ld_unit_zero (S := S4x512) zeros2, View.ld_unit_zero (S := S4x3x512) zeros3]

end Cert.KernelIdeal.Tile0

end
-- ==== Proof.KernelIdeal.Scoped0.lean ====
/-
  The scoped buffers the first pallas_call does not stage: its scratch (the running minimum) and the other
  call's buffers. The region's invariant holds them all at some contents; here it is opened around the scratch.
-/
import proofs.«160138_j85237920956691_1_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch operand: a whole scoped buffer of the kernel's own. -/
abbrev scM : Memref sig .tc .vmem S4x512 .f32 := Memref.whole cc0_scratch0

/-- The other pallas_call's scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant gives the scratch at some contents, the other scoped buffers, and the generator register. -/
theorem PhiA_open (c : Dev nD) :
    (Pipeline.ΦA spec0 c : sProp 𝕄) ⊢ iprop((∃ d, owns (c : Thread nD τ) scM fullShare d) ∗ others c ∗ (∃ r, prngReg c r)) := by
  unfold Pipeline.ΦA others; rw [scopedRest0_eq]; simp only [scM, owns_whole]
  iintro ⟨⟨Hs, Ho⟩, Hp⟩
  isplitl [Hs]; · iexact Hs
  isplitl [Ho]; · iexact Ho
  iexact Hp

/-- And takes them back, the scratch at whatever it then holds. -/
theorem PhiA_close (c : Dev nD) :
    iprop((∃ d, owns (c : Thread nD τ) scM fullShare d) ∗ others c ∗ (∃ r, prngReg c r)) ⊢ (Pipeline.ΦA spec0 c : sProp 𝕄) := by
  unfold Pipeline.ΦA others; rw [scopedRest0_eq]; simp only [scM, owns_whole]
  iintro ⟨Hs, Ho, Hp⟩
  isplitl [Hs Ho]
  · isplitl [Hs]; · iexact Hs
    iexact Ho
  iexact Hp

end Cert.KernelIdeal.Tile0

end
-- ==== Proof.KernelIdeal.Data0.lean ====
/-
  The first pallas_call's proof data. Point `t = 16·i + j` of the grid pairs query tile `i` with key tile `j`.
  The scratch holds, after point `t`, the minimum over key tiles `0 … j` of the squared distances from the queries
  of tile `i`; the output block of tile `i` is written once, at `j = 15`, with that minimum.
-/
import proofs.«160138_j85237920956691_1_alg».proof.Proof.KernelIdeal.Tile0
import proofs.«160138_j85237920956691_1_alg».proof.Proof.KernelIdeal.Scoped0

set_option maxRecDepth 16384

noncomputable section

namespace Cert.KernelIdeal.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`. -/
abbrev qTile (c : Dev nD) (t : Fin cfg0.N) : Vec F S4x3x512 .f32 := blockAt V c 0 t
abbrev kTile (c : Dev nD) (t : Fin cfg0.N) : Vec F S4x3x512 .f32 := blockAt V c 1 t

/-- An input window's buffer holds its block at every point, fetched there or not (the query tile is fetched only
    when `i` moves; in between its index does not move), for any proof data over `V` whose body leaves it in place. -/
theorem before_q_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_k_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum, point by point -/

/-- What the scratch holds after point `n`: started at every first key tile, lowered at every later one. -/
def minAt (c : Dev nD) : (n : ℕ) → n < cfg0.N → Vec F S4x512 .f32
  | 0, hn => startMin (qTile V c ⟨0, hn⟩) (kTile V c ⟨0, hn⟩)
  | n + 1, hn =>
    if (n + 1) % 16 = 0 then startMin (qTile V c ⟨n + 1, hn⟩) (kTile V c ⟨n + 1, hn⟩)
    else lowerMin (qTile V c ⟨n + 1, hn⟩) (kTile V c ⟨n + 1, hn⟩) (minAt c n (Nat.lt_of_succ_lt hn))

theorem minAt_first (c : Dev nD) (t : Fin cfg0.N) (h : t.val % 16 = 0) :
    minAt V c t.val t.isLt = startMin (qTile V c t) (kTile V c t) := by
  obtain ⟨n, hn⟩ := t
  cases n with
  | zero => rfl
  | succ n => exact if_pos h

theorem minAt_later (c : Dev nD) (t : Fin cfg0.N) (h : ¬t.val % 16 = 0) :
    minAt V c t.val t.isLt = lowerMin (qTile V c t) (kTile V c t) (minAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- Before point `n`: at the first point the scoped rest at anything; afterwards the scratch at what point `n - 1`
    left, the other scoped buffers at anything, the generator register at some state. -/
def Phi (c : Dev nD) : (n : ℕ) → n ≤ cfg0.N → sProp 𝕄
  | 0, _ => Pipeline.ΦA spec0 c
  | n + 1, hn => iprop(owns (c : Thread nD τ) scM fullShare (minAt V c n hn) ∗ others c ∗ (∃ r, prngReg c r))

theorem Phi_succ (c : Dev nD) (n : ℕ) (hn : n < cfg0.N) :
    Phi V c (n + 1) hn = iprop(owns (c : Thread nD τ) scM fullShare (minAt V c n hn) ∗ others c ∗ (∃ r, prngReg c r)) := rfl

theorem Phi_pos (c : Dev nD) (n : ℕ) (h : n ≤ cfg0.N) (hz : n ≠ 0) :
    Phi V c n h = iprop(owns (c : Thread nD τ) scM fullShare (minAt V c (n - 1) (by omega)) ∗ others c ∗ (∃ r, prngReg c r)) := by
  cases n with
  | zero => exact absurd rfl hz
  | succ n => rfl

/-- At any point the invariant holds the scratch at SOME contents. -/
theorem Phi_any (c : Dev nD) (n : ℕ) (h : n ≤ cfg0.N) :
    Phi V c n h ⊢ iprop((∃ d, owns (c : Thread nD τ) scM fullShare d) ∗ others c ∗ (∃ r, prngReg c r)) := by
  cases n with
  | zero => exact PhiA_open c
  | succ n =>
    rw [Phi_succ]
    iintro ⟨Hs, Ho, Hp⟩
    isplitl [Hs]; · iexists _; iexact Hs
    isplitl [Ho]; · iexact Ho
    iexact Hp

/-! ## The proof data -/

/-- The arrays as the region finds them; after the body each input's buffer at its tile and the output's at the
    running minimum (read only where the block is written back, at the last key tile); the invariant `Phi`;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => minAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_q (c : Dev nD) (t : Fin cfg0.N) : (dat V c).after 0 t = blockAt V c 0 t := by dsimp only [dat]
theorem after_k (c : Dev nD) (t : Fin cfg0.N) : (dat V c).after 1 t = blockAt V c 1 t := by dsimp only [dat]
theorem after_out (c : Dev nD) (t : Fin cfg0.N) : (dat V c).after 2 t = minAt V c t.val t.isLt := by dsimp only [dat]

theorem before_q (c : Dev nD) (t : Fin cfg0.N) (d) : (dat V c).before 0 t d = qTile V c t :=
  before_q_of V (dat V c) (A_eq V c 0) (after_q V c) t d
theorem before_k (c : Dev nD) (t : Fin cfg0.N) (d) : (dat V c).before 1 t d = kTile V c t :=
  before_k_of V (dat V c) (A_eq V c 1) (after_k V c) t d

theorem Phi_castSucc (c : Dev nD) (t : Fin cfg0.N) :
    (dat V c).Φ t.castSucc = Phi V c t.val (Nat.le_of_lt t.isLt) := by
  dsimp only [dat]; simp only [Fin.coe_castSucc]

/-! ## Where the output window is idle -/

theorem inLive_q : ∀ t : Fin cfg0.N, cfg0.idle 0 (grid0.coords t) = false := fun _ => rfl
theorem inLive_k : ∀ t : Fin cfg0.N, cfg0.idle 1 (grid0.coords t) = false := fun _ => rfl
/-- Before the last key tile the body stores nothing into the output block's buffer, and the block is not written back. -/
theorem outIdle : ∀ t : Fin cfg0.N, ¬isLast (grid0.coords t) → cfg0.idle 2 (grid0.coords t) = true := by decide +kernel
theorem outKept : ∀ t : Fin cfg0.N, ¬isLast (grid0.coords t) → (cfg0.win 2).flush t = false := by decide +kernel
/-- At the last key tile it stores the block. -/
theorem outLive : ∀ t : Fin cfg0.N, isLast (grid0.coords t) → cfg0.idle 2 (grid0.coords t) = false := by decide +kernel

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the key tile it is at: the inputs' buffers hold their tiles; the invariant hands the
    body the scratch (at anything before a first key tile, at the running minimum before a later one) and takes it back
    at this point's minimum; the output's buffer comes back untouched before the last key tile and at the minimum at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_k]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st0_0 t) fullShare ((dat V c).after 0 t) from by
    unfold Dat.leavesExact; rw [inLive_q t], after_q]
  rw [show (dat V c).leavesExact 1 t = owns (c : Thread nD τ) (st0_1 t) fullShare ((dat V c).after 1 t) from by
    unfold Dat.leavesExact; rw [inLive_k t], after_k]
  have hN : t.val < 256 := lt_of_lt_of_eq t.isLt (show cfg0.N = 256 from N_0)
  by_cases h0 : t.val % 16 = 0
  · -- the first key tile of a row
    have h1 : isFirst (grid0.coords t) := (isFirst_iff t).mpr h0
    have h2 : ¬isLater (grid0.coords t) := fun h => (isLater_iff t).mp h h0
    have h3 : ¬isLast (grid0.coords t) := fun h => by have := (isLast_iff t).mp h; omega
    rw [Dat.leavesExact_idle (dat V c) 2 t (outIdle t h3) (outKept t h3), minAt_first V c t h0]
    iintro ⟨HΦ, Ho, ⟨%d0, H0⟩, ⟨%d1, H1⟩, H2⟩
    ihave HΦ' := (Phi_any V c _ _) $$ HΦ
    icases HΦ' with ⟨HS, Hoth, Hg⟩
    iapply (run_first c (grid0.coords t) _ _ _ _ _ _ _ _ h1 h2 h3 (qTile V c t) (kTile V c t) Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hz : t.val ≠ 0 := fun h => h0 (by rw [h])
    have h1 : ¬isFirst (grid0.coords t) := fun h => h0 ((isFirst_iff t).mp h)
    have h2 : isLater (grid0.coords t) := (isLater_iff t).mpr h0
    rw [Phi_pos V c _ _ hz, minAt_later V c t h0]
    by_cases h15 : t.val % 16 = 15
    · -- the last key tile: the block is stored
      have h3 : isLast (grid0.coords t) := (isLast_iff t).mpr h15
      rw [show (dat V c).leavesExact 2 t = owns (c : Thread nD τ) (st0_2 t) fullShare ((dat V c).after 2 t) from by
        unfold Dat.leavesExact; rw [outLive t h3], after_out, minAt_later V c t h0]
      iintro ⟨⟨HS, Hoth, Hg⟩, Ho, ⟨%d0, H0⟩, ⟨%d1, H1⟩, ⟨%d2, H2⟩⟩
      iapply (run_last c (grid0.coords t) _ _ _ _ _ _ _ _ h1 h2 h3 (qTile V c t) (kTile V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · -- a key tile strictly between
      have h3 : ¬isLast (grid0.coords t) := fun h => h15 ((isLast_iff t).mp h)
      rw [Dat.leavesExact_idle (dat V c) 2 t (outIdle t h3) (outKept t h3)]
      iintro ⟨⟨HS, Hoth, Hg⟩, Ho, ⟨%d0, H0⟩, ⟨%d1, H1⟩, H2⟩
      iapply (run_later c (grid0.coords t) _ _ _ _ _ _ _ _ h1 h2 h3 (qTile V c t) (kTile V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Pipeline.ΦA spec0 c from rfl]

/-- After the last point the invariant gives the scoped rest back, the scratch's contents forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl]
  exact (Phi_any V c _ _).trans (PhiA_close c)

end Cert.KernelIdeal.Tile0

end
-- ==== Proof.KernelIdeal.Tile1.lean ====
/-
  The kernel body of the second pallas_call at one grid point, run symbolically: what it leaves in the scratch
  (the running minimum over the key tiles seen so far) and, at the last key tile, in the output block's buffer.
-/
import proofs.«160138_j85237920956691_1_alg».proof.Proof.Gen.KernelIdeal.Launch
import proofs.«160138_j85237920956691_1_alg».proof.Proof.Gen.KernelIdeal.Skeleton
import proofs.«160138_j85237920956691_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which key tile a grid point is at

The grid point `(i, j)` pairs query tile `i` with key tile `j`. The body branches three times on `j`,
each condition a scalar chain over the point's second coordinate: `j = 0` (the running minimum is
started), `j ≠ 0` (it is lowered), `j = 15` (it is copied to the output block). -/

/-- `j = 0`, as the kernel computes it. -/
abbrev isFirst (i : grid1.Coords) : Prop := (Scalar.cmpi .ne (Scalar.extui (Scalar.cmpi .eq (BitVec.ofNat 32 (i 1).val) 0#32)) 0#32) = 1#1
/-- `j ≠ 0`, as the kernel computes it. -/
abbrev isLater (i : grid1.Coords) : Prop := (Scalar.cmpi .ne (Scalar.extui (Scalar.cmpi .ne (BitVec.ofNat 32 (i 1).val) 0#32)) 0#32) = 1#1
/-- `j = 15`, as the kernel computes it. -/
abbrev isLast (i : grid1.Coords) : Prop := k1_cond3 i = 1#1

/-- Point `t` of the row-major grid has `j = t mod 16`: the three conditions over the 256 points. -/
theorem isFirst_iff : ∀ t : Fin cfg1.N, isFirst (grid1.coords t) ↔ t.val % 16 = 0 :=
  (by decide +kernel : ∀ t : Fin grid1.N, isFirst (grid1.coords t) ↔ t.val % 16 = 0)
theorem isLater_iff : ∀ t : Fin cfg1.N, isLater (grid1.coords t) ↔ ¬ t.val % 16 = 0 :=
  (by decide +kernel : ∀ t : Fin grid1.N, isLater (grid1.coords t) ↔ ¬ t.val % 16 = 0)
theorem isLast_iff : ∀ t : Fin cfg1.N, isLast (grid1.coords t) ↔ t.val % 16 = 15 :=
  (by decide +kernel : ∀ t : Fin grid1.N, isLast (grid1.coords t) ↔ t.val % 16 = 15)

/-! ## What a point leaves in the running minimum

`x0` is the query tile, `x1` the key tile. The tile of squared distances is `k1_pay4 x0 x1`; its minimum
along the key axis starts the running minimum at the first key tile and lowers it at every later one. -/

/-- The running minimum after the first key tile. -/
abbrev startMin (x0 x1 : Vec F S4x3x512 .f32) : Vec F S4x512 .f32 := k1_pay2 (k1_pay4 x0 x1)
/-- The running minimum `s` lowered by a later key tile. -/
abbrev lowerMin (x0 x1 : Vec F S4x3x512 .f32) (s : Vec F S4x512 .f32) : Vec F S4x512 .f32 := k1_pay3 (k1_pay4 x0 x1) s

theorem zeros2 : (![0, 0] : Fin S4x512.rank → Nat) = fun _ => 0 := by funext a; fin_cases a <;> rfl
theorem zeros3 : (![0, 0, 0] : Fin S4x3x512.rank → Nat) = fun _ => 0 := by funext a; fin_cases a <;> rfl

/-- One store through the whole-buffer rectangle covers the buffer. -/
theorem wholeCover (p0 : Vec F S4x512 .f32) (y : S4x512.Idx) :
    ∃ pc ∈ ([⟨Rect.unit (s := S4x512) ![0, 0] S4x512.size inb_S4x512_S4x512_0_0, p0⟩] : List (View.Piece (Elt F) S4x512 .f32)), y ∈ pc.1.set :=
  View.cover_of_tiled [⟨Rect.unit (s := S4x512) ![0, 0] S4x512.size inb_S4x512_S4x512_0_0, p0⟩] S4x512.size (by rfl) y

/-! ## The body's three runs -/

set_option maxHeartbeats 2000000 in
/-- At the first key tile the body reads both tiles, stores the tile minimum into the scratch whatever it held,
    and touches nothing else. -/
theorem run_first (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : isFirst i) (h2 : ¬isLater i) (h3 : ¬isLast i)
    (x0 x1 : Vec F S4x3x512 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (startMin x0 x1)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%d5, %f5, -, HS⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg2.read_unread, harg3.read_unread, View.ld_unit_zero (S := S4x3x512) zeros3]

set_option maxHeartbeats 2000000 in
/-- At a later key tile that is not the last the body reads both tiles and the scratch, and stores the lowered
    minimum back into the scratch. -/
theorem run_later (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : ¬isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (lowerMin x0 x1 s)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (wholeCover _)]
  sl_unfold_words
  rw [View.canon_unit_zero zeros2]
  simp only [View.readAt_eq_ld, harg5.read_unread, harg2.read_unread, harg3.read_unread, View.ld_unit_zero (S := S4x512) zeros2, View.ld_unit_zero (S := S4x3x512) zeros3]

set_option maxHeartbeats 2000000 in
/-- At the last key tile the body lowers the minimum as at any later tile and then copies the scratch into the
    output block's buffer, whatever that held. -/
theorem run_last (c : Dev nD) (i : grid1.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S4x512 .f32) (harg5 : arg5.IsWhole)
    (h1 : ¬isFirst i) (h2 : isLater i) (h3 : isLast i)
    (x0 x1 : Vec F S4x3x512 .f32) (s : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (lowerMin x0 x1 s)
            ∗ owns (c : Thread nD τ) arg5 fullShare (lowerMin x0 x1 s)) -∗ K ⟨⟩))
      ⊢ wp frame (wpE (defs₀ (F := F)) Variants.none c none) E (cc1__mindist_kernel i arg2 harg2 arg3 harg3 arg4 harg4 arg5 harg5) K := by
  simp only [cc1__mindist_kernel_eq_skeleton]; unfold cc1__mindist_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (wholeCover _)]
    rw [View.canon_unit_zero zeros2, View.readCov_unit_zero (S := S4x512) _ zeros2]
    simp only [View.readAt_eq_ld, harg5.read_unread, harg2.read_unread, harg3.read_unread, View.ld_unit_zero (S := S4x512) zeros2, View.ld_unit_zero (S := S4x3x512) zeros3]
  iexists _; isplitr
  swap; · iexact HS
  ipureintro
  sl_unfold_words
  rw [View.read_writes_eq_canon _ _ _ (wholeCover _)]
  rw [View.canon_unit_zero zeros2]
  simp only [View.readAt_eq_ld, harg5.read_unread, harg2.read_unread, harg3.read_unread, View.ld_unit_zero (S := S4x512) zeros2, View.ld_unit_zero (S := S4x3x512) zeros3]

end Cert.KernelIdeal.Tile1

end
-- ==== Proof.KernelIdeal.Scoped1.lean ====
/-
  The scoped buffers the second pallas_call does not stage: the other call's buffers and its own scratch (the
  running minimum), which the signature lists last. The region's invariant holds them all at some contents; here
  it is opened around the scratch.
-/
import proofs.«160138_j85237920956691_1_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch operand: a whole scoped buffer of the kernel's own. -/
abbrev scM : Memref sig .tc .vmem S4x512 .f32 := Memref.whole cc1_scratch0

/-- The other pallas_call's scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's invariant gives the scratch at some contents, the other scoped buffers, and the generator register. -/
theorem PhiA_open (c : Dev nD) :
    (Pipeline.ΦA spec1 c : sProp 𝕄) ⊢ iprop((∃ d, owns (c : Thread nD τ) scM fullShare d) ∗ others c ∗ (∃ r, prngReg c r)) := by
  unfold Pipeline.ΦA others; rw [scopedRest1_eq]; simp only [scM, owns_whole]
  iintro ⟨⟨H0, H1, H2, H3, H4, H5, H6, Hs⟩, Hp⟩
  isplitl [Hs]; · iexact Hs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact Hp

/-- And takes them back, the scratch at whatever it then holds. -/
theorem PhiA_close (c : Dev nD) :
    iprop((∃ d, owns (c : Thread nD τ) scM fullShare d) ∗ others c ∗ (∃ r, prngReg c r)) ⊢ (Pipeline.ΦA spec1 c : sProp 𝕄) := by
  unfold Pipeline.ΦA others; rw [scopedRest1_eq]; simp only [scM, owns_whole]
  iintro ⟨Hs, ⟨H0, H1, H2, H3, H4, H5, H6⟩, Hp⟩
  isplitl [Hs H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iexact Hp

end Cert.KernelIdeal.Tile1

end
-- ==== Proof.KernelIdeal.Data1.lean ====
/-
  The second pallas_call's proof data. Point `t = 16·i + j` of the grid pairs query tile `i` with key tile `j`.
  The scratch holds, after point `t`, the minimum over key tiles `0 … j` of the squared distances from the queries
  of tile `i`; the output block of tile `i` is written once, at `j = 15`, with that minimum.
-/
import proofs.«160138_j85237920956691_1_alg».proof.Proof.KernelIdeal.Tile1
import proofs.«160138_j85237920956691_1_alg».proof.Proof.KernelIdeal.Scoped1

set_option maxRecDepth 16384

noncomputable section

namespace Cert.KernelIdeal.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The tiles -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`. -/
abbrev qTile (c : Dev nD) (t : Fin cfg1.N) : Vec F S4x3x512 .f32 := blockAt V c 0 t
abbrev kTile (c : Dev nD) (t : Fin cfg1.N) : Vec F S4x3x512 .f32 := blockAt V c 1 t

/-- An input window's buffer holds its block at every point, fetched there or not (the query tile is fetched only
    when `i` moves; in between its index does not move), for any proof data over `V` whose body leaves it in place. -/
theorem before_q_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_k_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum, point by point -/

/-- What the scratch holds after point `n`: started at every first key tile, lowered at every later one. -/
def minAt (c : Dev nD) : (n : ℕ) → n < cfg1.N → Vec F S4x512 .f32
  | 0, hn => startMin (qTile V c ⟨0, hn⟩) (kTile V c ⟨0, hn⟩)
  | n + 1, hn =>
    if (n + 1) % 16 = 0 then startMin (qTile V c ⟨n + 1, hn⟩) (kTile V c ⟨n + 1, hn⟩)
    else lowerMin (qTile V c ⟨n + 1, hn⟩) (kTile V c ⟨n + 1, hn⟩) (minAt c n (Nat.lt_of_succ_lt hn))

theorem minAt_first (c : Dev nD) (t : Fin cfg1.N) (h : t.val % 16 = 0) :
    minAt V c t.val t.isLt = startMin (qTile V c t) (kTile V c t) := by
  obtain ⟨n, hn⟩ := t
  cases n with
  | zero => rfl
  | succ n => exact if_pos h

theorem minAt_later (c : Dev nD) (t : Fin cfg1.N) (h : ¬t.val % 16 = 0) :
    minAt V c t.val t.isLt = lowerMin (qTile V c t) (kTile V c t) (minAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch at the running minimum -/

/-- Before point `n`: at the first point the scoped rest at anything; afterwards the scratch at what point `n - 1`
    left, the other scoped buffers at anything, the generator register at some state. -/
def Phi (c : Dev nD) : (n : ℕ) → n ≤ cfg1.N → sProp 𝕄
  | 0, _ => Pipeline.ΦA spec1 c
  | n + 1, hn => iprop(owns (c : Thread nD τ) scM fullShare (minAt V c n hn) ∗ others c ∗ (∃ r, prngReg c r))

theorem Phi_succ (c : Dev nD) (n : ℕ) (hn : n < cfg1.N) :
    Phi V c (n + 1) hn = iprop(owns (c : Thread nD τ) scM fullShare (minAt V c n hn) ∗ others c ∗ (∃ r, prngReg c r)) := rfl

theorem Phi_pos (c : Dev nD) (n : ℕ) (h : n ≤ cfg1.N) (hz : n ≠ 0) :
    Phi V c n h = iprop(owns (c : Thread nD τ) scM fullShare (minAt V c (n - 1) (by omega)) ∗ others c ∗ (∃ r, prngReg c r)) := by
  cases n with
  | zero => exact absurd rfl hz
  | succ n => rfl

/-- At any point the invariant holds the scratch at SOME contents. -/
theorem Phi_any (c : Dev nD) (n : ℕ) (h : n ≤ cfg1.N) :
    Phi V c n h ⊢ iprop((∃ d, owns (c : Thread nD τ) scM fullShare d) ∗ others c ∗ (∃ r, prngReg c r)) := by
  cases n with
  | zero => exact PhiA_open c
  | succ n =>
    rw [Phi_succ]
    iintro ⟨Hs, Ho, Hp⟩
    isplitl [Hs]; · iexists _; iexact Hs
    isplitl [Ho]; · iexact Ho
    iexact Hp

/-! ## The proof data -/

/-- The arrays as the region finds them; after the body each input's buffer at its tile and the output's at the
    running minimum (read only where the block is written back, at the last key tile); the invariant `Phi`;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => minAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_out (c : Dev nD) (t : Fin cfg1.N) : (dat V c).after 2 t = minAt V c t.val t.isLt := by dsimp only [dat]

theorem before_q (c : Dev nD) (t : Fin cfg1.N) (d) : (dat V c).before 0 t d = qTile V c t :=
  before_q_of V (dat V c) (A_eq V c 0) (after_q V c) t d
theorem before_k (c : Dev nD) (t : Fin cfg1.N) (d) : (dat V c).before 1 t d = kTile V c t :=
  before_k_of V (dat V c) (A_eq V c 1) (after_k V c) t d

theorem Phi_castSucc (c : Dev nD) (t : Fin cfg1.N) :
    (dat V c).Φ t.castSucc = Phi V c t.val (Nat.le_of_lt t.isLt) := by
  dsimp only [dat]; simp only [Fin.coe_castSucc]

/-! ## Where the output window is idle -/

theorem inLive_q : ∀ t : Fin cfg1.N, cfg1.idle 0 (grid1.coords t) = false := fun _ => rfl
theorem inLive_k : ∀ t : Fin cfg1.N, cfg1.idle 1 (grid1.coords t) = false := fun _ => rfl
/-- Before the last key tile the body stores nothing into the output block's buffer, and the block is not written back. -/
theorem outIdle : ∀ t : Fin cfg1.N, ¬isLast (grid1.coords t) → cfg1.idle 2 (grid1.coords t) = true := by decide +kernel
theorem outKept : ∀ t : Fin cfg1.N, ¬isLast (grid1.coords t) → (cfg1.win 2).flush t = false := by decide +kernel
/-- At the last key tile it stores the block. -/
theorem outLive : ∀ t : Fin cfg1.N, isLast (grid1.coords t) → cfg1.idle 2 (grid1.coords t) = false := by decide +kernel

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the key tile it is at: the inputs' buffers hold their tiles; the invariant hands the
    body the scratch (at anything before a first key tile, at the running minimum before a later one) and takes it back
    at this point's minimum; the output's buffer comes back untouched before the last key tile and at the minimum at it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st1_0 t) fullShare ((dat V c).after 0 t) from by
    unfold Dat.leavesExact; rw [inLive_q t], after_q]
  rw [show (dat V c).leavesExact 1 t = owns (c : Thread nD τ) (st1_1 t) fullShare ((dat V c).after 1 t) from by
    unfold Dat.leavesExact; rw [inLive_k t], after_k]
  have hN : t.val < 256 := lt_of_lt_of_eq t.isLt (show cfg1.N = 256 from N_1)
  by_cases h0 : t.val % 16 = 0
  · -- the first key tile of a row
    have h1 : isFirst (grid1.coords t) := (isFirst_iff t).mpr h0
    have h2 : ¬isLater (grid1.coords t) := fun h => (isLater_iff t).mp h h0
    have h3 : ¬isLast (grid1.coords t) := fun h => by have := (isLast_iff t).mp h; omega
    rw [Dat.leavesExact_idle (dat V c) 2 t (outIdle t h3) (outKept t h3), minAt_first V c t h0]
    iintro ⟨HΦ, Ho, ⟨%d0, H0⟩, ⟨%d1, H1⟩, H2⟩
    ihave HΦ' := (Phi_any V c _ _) $$ HΦ
    icases HΦ' with ⟨HS, Hoth, Hg⟩
    iapply (run_first c (grid1.coords t) _ _ _ _ _ _ _ _ h1 h2 h3 (qTile V c t) (kTile V c t) Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hz : t.val ≠ 0 := fun h => h0 (by rw [h])
    have h1 : ¬isFirst (grid1.coords t) := fun h => h0 ((isFirst_iff t).mp h)
    have h2 : isLater (grid1.coords t) := (isLater_iff t).mpr h0
    rw [Phi_pos V c _ _ hz, minAt_later V c t h0]
    by_cases h15 : t.val % 16 = 15
    · -- the last key tile: the block is stored
      have h3 : isLast (grid1.coords t) := (isLast_iff t).mpr h15
      rw [show (dat V c).leavesExact 2 t = owns (c : Thread nD τ) (st1_2 t) fullShare ((dat V c).after 2 t) from by
        unfold Dat.leavesExact; rw [outLive t h3], after_out, minAt_later V c t h0]
      iintro ⟨⟨HS, Hoth, Hg⟩, Ho, ⟨%d0, H0⟩, ⟨%d1, H1⟩, ⟨%d2, H2⟩⟩
      iapply (run_last c (grid1.coords t) _ _ _ _ _ _ _ _ h1 h2 h3 (qTile V c t) (kTile V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · -- a key tile strictly between
      have h3 : ¬isLast (grid1.coords t) := fun h => h15 ((isLast_iff t).mp h)
      rw [Dat.leavesExact_idle (dat V c) 2 t (outIdle t h3) (outKept t h3)]
      iintro ⟨⟨HS, Hoth, Hg⟩, Ho, ⟨%d0, H0⟩, ⟨%d1, H1⟩, H2⟩
      iapply (run_later c (grid1.coords t) _ _ _ _ _ _ _ _ h1 h2 h3 (qTile V c t) (kTile V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Pipeline.ΦA spec1 c from rfl]

/-- After the last point the invariant gives the scoped rest back, the scratch's contents forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_close c)

end Cert.KernelIdeal.Tile1

end
-- ==== Proof.KernelIdeal.Whole.lean ====
/-
  The whole run of the program: the first pallas_call, the second, then the host operations that average each
  result and add the averages. Between the items every unscoped buffer of the core is held at named contents; at the
  end each is read back, which gives both that the arguments are unchanged and what the result buffer holds.
-/
import proofs.«160138_j85237920956691_1_alg».proof.Proof.KernelIdeal.Data0
import proofs.«160138_j85237920956691_1_alg».proof.Proof.KernelIdeal.Data1
import proofs.«160138_j85237920956691_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- After the first pallas_call: its arrays at what the pipeline leaves (the inputs as entered, the output's write-backs
    folded), every other buffer as entered. -/
def W1 (c : Dev nD) : Valuation τ sig (Elt F) :=
  Pipeline.withArrays spec0 c (W0 m c) fun w => (Tile0.dat (V0 m) c).arrAt w cfg0.N
theorem W1_arr (c : Dev nD) (w : Fin cfg0.W) :
    W1 m c (Proc.devRef .tc (Pipeline.arrRef spec0 w)) = (Tile0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem exit0_arr (c : Dev nD) (w : Fin cfg0.W) : (Tile0.dat (V0 m) c).arrAt w cfg0.N = V1 m c (Pipeline.arrRef spec0 w) :=
  (W1_arr m c w).symm
theorem exit0_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call: its arrays at what the pipeline leaves (the inputs as entered, the output's write-backs
    folded), every other buffer as entered. -/
def W2 (c : Dev nD) : Valuation τ sig (Elt F) :=
  Pipeline.withArrays spec1 c (W1 m c) fun w => (Tile1.dat (V1 m) c).arrAt w cfg1.N
theorem W2_arr (c : Dev nD) (w : Fin cfg1.W) :
    W2 m c (Proc.devRef .tc (Pipeline.arrRef spec1 w)) = (Tile1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem exit1_arr (c : Dev nD) (w : Fin cfg1.W) : (Tile1.dat (V1 m) c).arrAt w cfg1.N = V2 m c (Pipeline.arrRef spec1 w) :=
  (W2_arr m c w).symm
theorem exit1_rest (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and what rides beside the buffers -/

/-- No pallas_call has a prefetched table. -/
abbrev adm : (p : Fin 2) → (pcfgs (F := F) p).Adm := fun p => (cfgs p).toPCfg_adm
/-- Each pallas_call's proof data at its region's entry contents. -/
def pdats : (p : Fin 2) → (c : Dev nD) → Dat τ (Elt F) Unit ℕ (UR sig nD τ) ℕ (Pipeline.pin (pcfgs (F := F)) adm p) c
  | ⟨0, _⟩ => fun c => Tile0.dat (V0 m) c
  | ⟨1, _⟩ => fun c => Tile1.dat (V1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The host operations as a segment from the contents `W2`. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the `owes`. -/
abbrev Tₙ (c : Dev nD) : sProp 𝕄 := iprop(StableHlo.held (c : Thread nD τ) (Pipeline.ucRefs τ sig) (W3 m c) ∗ ∃ r, prngReg c r)

/-! ## The pallas_calls as segments -/

-- unification of the library's lemmas, stated over the pinned configuration, with the printed one unfolds plain
-- definitions in a metavariable's type
set_option backward.isDefEq.respectTransparency.types false in
/-- The first pallas_call as a segment of @main: entered with every unscoped buffer at `W0`, left with them at `W1`.
    Its three arrays are split out of the unscoped buffers on the way in and put back, the output at what the write-backs
    left, on the way out; the generator register passes through the invariant; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Tile0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m 0 c).Φ (Fin.last _)
        ⊢ iprop(Pipeline.scopedRest (Ix := Unit) (Name := ℕ) (U := UR sig nD τ) (Lvl := ℕ) (Val := Elt F) spec0 c ∗ ∃ r, prngReg c r) :=
      Tile0.hout (V0 m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas, stated over the pinned configuration, with the printed one unfolds plain
-- definitions in a metavariable's type
set_option backward.isDefEq.respectTransparency.types false in
/-- The second pallas_call as a segment of @main: entered with every unscoped buffer at `W1`, left with them at `W2`.
    Its three arrays are split out of the unscoped buffers on the way in and put back, the output at what the write-backs
    left, on the way out; the generator register passes through the invariant; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Tile1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _)
        ⊢ iprop(Pipeline.scopedRest (Ix := Unit) (Name := ℕ) (U := UR sig nD τ) (Lvl := ℕ) (Val := Elt F) spec1 c ∗ ∃ r, prngReg c r) :=
      Tile1.hout (V1 m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main, and the launch -/

abbrev segs : List (Pipeline.Seg (pcfgs (F := F)) adm (pdats m) () defs₀ 𝒱₀ L lv) :=
  [ .region (reg0 m), .region (reg1 m), .host (tailSeg m) ]

theorem main_run (c : Dev nD) : main (F := F) c = Pipeline.Seg.run (segs m) := (main_chain c).trans (by chain_rfl)

set_option backward.isDefEq.respectTransparency.types false in
/-- Every weakly fair execution of @main terminates, nothing faulting, and every final memory holds each unscoped
    buffer of each core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      change iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## The arguments end as launched -/

/-- No host operation writes an argument, and each pallas_call only reads it through an input window. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Tile1.dat (V1 m) c).arrAt_in 1 rfl _).trans (Tile1.A_eq (V1 m) c 1))
    _ = W0 m c (Proc.devRef .tc main_arg0) := (W1_arr m c 0).trans (((Tile0.dat (V0 m) c).arrAt_in 0 rfl _).trans (Tile0.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Tile1.dat (V1 m) c).arrAt_in 0 rfl _).trans (Tile1.A_eq (V1 m) c 0))
    _ = W0 m c (Proc.devRef .tc main_arg1) := (W1_arr m c 1).trans (((Tile0.dat (V0 m) c).arrAt_in 1 rfl _).trans (Tile0.A_eq (V0 m) c 1))
    _ = m ((c : Thread nD τ).loc main_arg1) := rfl

/-- The frame: the run terminates, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Whole

end
-- ==== Proof.Spec.lean ====
/-
  The mathematics of the two programs, over the extended reals and free of any program text.

  A batch of point clouds is `p b c n`: coordinate `c` (of three) of point `n` in batch `b` (of four). For clouds
  `p` (queries) and `q` (keys) the squared distance between query `n` and key `m` is
  `|p_n|² + |q_m|² − 2 ⟨p_n, q_m⟩`. One program subtracts twice the inner product in one piece, the other one
  coordinate at a time; on real numbers the two agree. The nearest-key distance of a query is the infimum over the keys,
  which may be taken tile of keys by tile of keys.
-/
import Idealize.ShloMosaic.PureOps.Ideal
import Idealize.ShloMosaic.PureOps.Ideal.Laws
import Mathlib.Data.EReal.Basic
import Mathlib.Order.CompleteLattice.Finset
import Mathlib.Algebra.BigOperators.Fin

noncomputable section

namespace Cert.Chamfer

open Idealize.ShloMosaic

/-- A batch of four clouds of `N` points in three coordinates. -/
abbrev Cloud (N : ℕ) : Type := Fin 4 → Fin 3 → Fin N → EReal

/-- The factor of the inner product, as both programs spell it: the f32 word of `2.0`. -/
def two : EReal := Ideal.ofBits .f32 0x40000000#32

/-- The start value of every minimum, as both programs spell it: the f32 word of `+∞`. -/
def posInf : EReal := Ideal.ofBits .f32 0x7F800000#32

theorem two_eq : two = ((2 : ℝ) : EReal) := by
  unfold two
  simp [Ideal.ofBits, Ideal.ieee, -EReal.coe_mul]; norm_num

theorem posInf_eq : posInf = ⊤ := by
  unfold posInf
  simp [Ideal.ofBits, Ideal.ieee]

/-- `|p_n|²`. -/
def normSq {N : ℕ} (p : Cloud N) (b : Fin 4) (n : Fin N) : EReal := ∑ c : Fin 3, p b c n * p b c n

/-- The squared distance with the inner product subtracted one coordinate at a time. -/
def distStep {N M : ℕ} (p : Cloud N) (q : Cloud M) (b : Fin 4) (n : Fin N) (m : Fin M) : EReal :=
  (((normSq p b n + normSq q b m) - two * (p b 0 n * q b 0 m)) - two * (p b 1 n * q b 1 m)) - two * (p b 2 n * q b 2 m)

/-- The squared distance with the inner product subtracted in one piece. -/
def distDot {N M : ℕ} (p : Cloud N) (q : Cloud M) (b : Fin 4) (n : Fin N) (m : Fin M) : EReal :=
  (normSq p b n + normSq q b m) - two * ∑ c : Fin 3, p b c n * q b c m

/-- Every coordinate of the cloud is a real number. -/
def IsReal {N : ℕ} (p : Cloud N) : Prop := ∀ b c n, ∃ r : ℝ, p b c n = (r : EReal)

/-- On real coordinates the two arrangements are one number. -/
theorem distStep_eq_distDot {N M : ℕ} {p : Cloud N} {q : Cloud M} (hp : IsReal p) (hq : IsReal q) (b : Fin 4) (n : Fin N) (m : Fin M) :
    distStep p q b n m = distDot p q b n m := by
  obtain ⟨a0, ha0⟩ := hp b 0 n
  obtain ⟨a1, ha1⟩ := hp b 1 n
  obtain ⟨a2, ha2⟩ := hp b 2 n
  obtain ⟨c0, hc0⟩ := hq b 0 m
  obtain ⟨c1, hc1⟩ := hq b 1 m
  obtain ⟨c2, hc2⟩ := hq b 2 m
  unfold distStep distDot normSq
  rw [two_eq]
  simp only [Fin.sum_univ_three, ha0, ha1, ha2, hc0, hc1, hc2]
  simp only [← EReal.coe_mul, ← EReal.coe_add, ← EReal.coe_sub]
  refine congrArg (fun r : ℝ => (r : EReal)) ?_
  ring

/-- And with the roles of the clouds exchanged: the distance from key `m` to query `n` is the distance from `n` to `m`. -/
theorem distStep_swap {N M : ℕ} {p : Cloud N} {q : Cloud M} (hp : IsReal p) (hq : IsReal q) (b : Fin 4) (n : Fin N) (m : Fin M) :
    distStep q p b m n = distDot p q b n m := by
  obtain ⟨a0, ha0⟩ := hp b 0 n
  obtain ⟨a1, ha1⟩ := hp b 1 n
  obtain ⟨a2, ha2⟩ := hp b 2 n
  obtain ⟨c0, hc0⟩ := hq b 0 m
  obtain ⟨c1, hc1⟩ := hq b 1 m
  obtain ⟨c2, hc2⟩ := hq b 2 m
  unfold distStep distDot normSq
  rw [two_eq]
  simp only [Fin.sum_univ_three, ha0, ha1, ha2, hc0, hc1, hc2]
  simp only [← EReal.coe_mul, ← EReal.coe_add, ← EReal.coe_sub]
  refine congrArg (fun r : ℝ => (r : EReal)) ?_
  ring

/-! ## Minima -/

/-- A fold of `min` from `⊤` over any finite set is the infimum over that set: both are built by the same
    recursion on the set, one element at a time. -/
private theorem fold_min_top {ι : Type} (f : ι → EReal) (s : Finset ι) :
    s.fold min ⊤ f = s.inf f := by
  classical
  induction s using Finset.induction_on with
  | empty => simp
  | insert a s ha ih => rw [Finset.fold_insert ha, Finset.inf_insert, ih]

/-- A fold of `min` from `+∞` over a whole finite index type is the infimum. -/
theorem fold_min_posInf {ι : Type} [Fintype ι] (f : ι → EReal) :
    (Finset.univ : Finset ι).fold min posInf f = Finset.univ.inf f := by
  rw [posInf_eq]
  exact fold_min_top f Finset.univ

/-- Point `q` of tile `j` of 512 among 8192 points. -/
def tileIx (j : Fin 16) (q : Fin 512) : Fin 8192 := ⟨512 * j.val + q.val, by omega⟩

/-- The tiles seen up to and including tile `k`. -/
def upTo (k : ℕ) : Finset (Fin 16) := Finset.univ.filter fun j => j.val ≤ k

theorem upTo_zero (g : Fin 16 → EReal) : (upTo 0).inf g = g 0 := by
  -- the only tile with index at most 0 is tile 0
  have h : upTo 0 = {0} := by
    ext j
    simp only [upTo, Finset.mem_filter, Finset.mem_univ, true_and, Finset.mem_singleton, Fin.ext_iff, Fin.val_zero]
    omega
  rw [h, Finset.inf_singleton]

theorem upTo_succ (g : Fin 16 → EReal) (k : ℕ) (hk : k + 1 < 16) :
    (upTo (k + 1)).inf g = min ((upTo k).inf g) (g ⟨k + 1, hk⟩) := by
  -- the tiles up to `k + 1` are tile `k + 1` together with the tiles up to `k`
  have h : upTo (k + 1) = insert ⟨k + 1, hk⟩ (upTo k) := by
    ext j
    simp only [upTo, Finset.mem_filter, Finset.mem_univ, true_and, Finset.mem_insert, Fin.ext_iff]
    omega
  rw [h, Finset.inf_insert, inf_comm]

/-- The infimum over all 8192 points is the infimum over the sixteen tiles of each tile's infimum. -/
theorem inf_upTo_last (d : Fin 8192 → EReal) :
    (upTo 15).inf (fun j => (Finset.univ : Finset (Fin 512)).inf fun q => d (tileIx j q)) = Finset.univ.inf d := by
  -- every one of the sixteen tiles has index at most 15
  have h : upTo 15 = Finset.univ := by
    ext j
    simp only [upTo, Finset.mem_filter, Finset.mem_univ, true_and, iff_true]
    omega
  rw [h]
  apply le_antisymm
  · -- point `m` is point `m % 512` of tile `m / 512`, so the tiled infimum is below `d m`
    apply Finset.le_inf
    intro m _
    have hj : m.val / 512 < 16 := by omega
    have hq : m.val % 512 < 512 := by omega
    have e : tileIx ⟨m.val / 512, hj⟩ ⟨m.val % 512, hq⟩ = m := by
      apply Fin.ext
      simp only [tileIx]
      omega
    calc (Finset.univ : Finset (Fin 16)).inf (fun j => (Finset.univ : Finset (Fin 512)).inf fun q => d (tileIx j q))
        ≤ (Finset.univ : Finset (Fin 512)).inf fun q => d (tileIx ⟨m.val / 512, hj⟩ q) :=
          Finset.inf_le (f := fun j => (Finset.univ : Finset (Fin 512)).inf fun q => d (tileIx j q)) (Finset.mem_univ _)
      _ ≤ d (tileIx ⟨m.val / 512, hj⟩ ⟨m.val % 512, hq⟩) :=
          Finset.inf_le (f := fun q => d (tileIx ⟨m.val / 512, hj⟩ q)) (Finset.mem_univ _)
      _ = d m := congrArg d e
  · -- every point of every tile is one of the 8192 points
    apply Finset.le_inf
    intro j _
    apply Finset.le_inf
    intro q _
    exact Finset.inf_le (Finset.mem_univ _)

end Cert.Chamfer

end
-- ==== Proof.KernelIdeal.Pay0.lean ====
/-
  The first pallas_call's tile arithmetic read at an index, at the ideal values: the tile of squared distances, its
  minimum along the key axis, and the two ways the running minimum is updated.
-/
import proofs.«160138_j85237920956691_1_alg».proof.Proof.KernelIdeal.Tile0
import proofs.«160138_j85237920956691_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile0

open Idealize.ShloMosaic Idealize.ShloMosaic.TcCoe Idealize.ShloMosaic.ValueIdx
open Cert.KernelIdeal Cert.KernelIdeal.Gen Cert.Chamfer

/-- A tile of 512 points as a cloud: coordinate `c` of point `r` in batch `b`. -/
def tileCloud (x : Vec Ideal S4x3x512 .f32) : Cloud 512 := fun b c r => x (ix3 b c r)

namespace Pay0

/-! ## The layout operations of the tile, read at coordinates

Each lemma reads one operation that moves values without computing on them at an index written by its coordinates. -/

section Layout
variable {α : Type}

/-- An `[a, b]` array cast to `[a, b, 1]` reads, at `(i, j, u)`, the operand at `(i, j)`: the row-major positions
`(i·b + j)·1 + u` and `i·b + j` agree because `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`: the row-major positions
`(i·1 + u)·b + j` and `i·b + j` agree because `u = 0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of batch `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The two reductions of the tile, read at coordinates -/

/-- The sum over the three coordinates of a `[4, 3, 512]` tile, at (batch `b`, point `r`): the reduced index with
coordinate `c` put back on the middle axis is `(b, c, r)`. -/
theorem coordSum_apply (v : FVec Ideal S4x3x512 .f32) (b : Fin 4) (r : Fin 512) :
    multiReduction (F := Ideal) .add [1] S4x512 v 0x00000000#32 reduces_S4x3x512_S4x512 (.inl rfl) rfl (ix2 b r)
      = ∑ c : Fin 3, v (ix3 b c r) := by
  refine (Ideal.multiReduction_add_single v _ reduces_S4x3x512_S4x512 _ _ (ix2 b r)).trans ?_
  show ∑ c : Fin 3, v (reduces_S4x3x512_S4x512.lift (ix2 b r) c) = ∑ c : Fin 3, v (ix3 b c r)
  refine Finset.sum_congr rfl fun c _ => congrArg v ?_
  funext ax
  match ax with
  | ⟨0, _⟩ => exact Fin.ext rfl
  | ⟨1, _⟩ => exact Fin.ext rfl
  | ⟨2, _⟩ => exact Fin.ext rfl

/-- The minimum along the key axis of a `[4, 512, 512]` tile, started from `+∞`, at (batch `b`, query `r`): the
infimum over the keys `q` of the tile at `(b, r, q)`. -/
theorem keyMin_apply (v : FVec Ideal S4x512x512 .f32) (b : Fin 4) (r : Fin 512) :
    multiReduction (F := Ideal) .minimumf [2] S4x512 v 0x7F800000#32 reduces_S4x512x512_S4x512 (.inl rfl) rfl (ix2 b r)
      = (Finset.univ : Finset (Fin 512)).inf fun q => v (ix3 b r q) := by
  refine (multiReduction_minimumf_eq_fold v _ reduces_S4x512x512_S4x512 _ _ (ix2 b r)).trans ?_
  refine (reduces_S4x512x512_S4x512.fold_filter_drop_single _ _ v (ix2 b r)).trans ?_
  refine (fold_min_posInf (ι := Fin 512) fun q => v (reduces_S4x512x512_S4x512.lift (ix2 b r) q)).trans ?_
  refine congrArg (Finset.univ : Finset (Fin 512)).inf (funext fun q => congrArg v ?_)
  funext ax
  match ax with
  | ⟨0, _⟩ => exact Fin.ext rfl
  | ⟨1, _⟩ => exact Fin.ext rfl
  | ⟨2, _⟩ => exact Fin.ext rfl

/-! ## The four ways a tile of points enters the tile of distances -/

/-- Coordinate `c` of the query tile, spread along the key axis: the slice of coordinate `c`, its two casts and the
broadcast read, at `(b, r, q)`, the tile at `(b, c, r)`. -/
theorem queryCoord_apply (o : ℕ) (x : Vec Ideal S4x3x512 .f32) (h1 : S4x3x512.Slices ![0, o, 0] S4x1x512)
    (b : Fin 4) (r q : Fin 512) (c : Fin 3) (hc : c.val = o) :
    broadcastTo S4x512x512 (shapeCast S4x512x1 (shapeCast S4x512 (extractStridedSlice S4x1x512 ![0, o, 0] x h1)
        shapeCasts_S4x1x512_S4x512) shapeCasts_S4x512_S4x512x1) broadcasts_S4x512x1_S4x512x512 (ix3 b r q)
      = x (ix3 b c r) :=
  (broadcastTo_ab1_abc_apply _ _ b r q).trans <| (shapeCast_ab_ab1_apply _ _ b r 0).trans <|
    (shapeCast_a1b_ab_apply _ _ b r).trans <| slice3_axis1_apply o x h1 b 0 r c hc

/-- Coordinate `c` of the key tile, spread along the query axis: read at `(b, r, q)` it is the tile at `(b, c, q)`. -/
theorem keyCoord_apply (o : ℕ) (x : Vec Ideal S4x3x512 .f32) (h1 : S4x3x512.Slices ![0, o, 0] S4x1x512)
    (b : Fin 4) (r q : Fin 512) (c : Fin 3) (hc : c.val = o) :
    broadcastTo S4x512x512 (shapeCast S4x1x512 (shapeCast S4x512 (extractStridedSlice S4x1x512 ![0, o, 0] x h1)
        shapeCasts_S4x1x512_S4x512) shapeCasts_S4x512_S4x1x512) broadcasts_S4x1x512_S4x512x512 (ix3 b r q)
      = x (ix3 b c q) :=
  (broadcastTo_a1c_abc_apply _ _ b r q).trans <| (shapeCast_ab_a1b_apply _ _ b 0 q).trans <|
    (shapeCast_a1b_ab_apply _ _ b q).trans <| slice3_axis1_apply o x h1 b 0 q c hc

/-- The squared norms of the query tile's points, spread along the key axis. -/
theorem queryNorm_apply (x : Vec Ideal S4x3x512 .f32) (b : Fin 4) (r q : Fin 512) :
    broadcastTo S4x512x512 (shapeCast S4x512x1 (multiReduction (F := Ideal) .add [1] S4x512 (mulf x x) 0x00000000#32
        reduces_S4x3x512_S4x512 (.inl rfl) rfl) shapeCasts_S4x512_S4x512x1) broadcasts_S4x512x1_S4x512x512 (ix3 b r q)
      = normSq (tileCloud x) b r :=
  (broadcastTo_ab1_abc_apply _ _ b r q).trans <| (shapeCast_ab_ab1_apply _ _ b r 0).trans <| coordSum_apply _ b r

/-- The squared norms of the key tile's points, spread along the query axis. -/
theorem keyNorm_apply (x : Vec Ideal S4x3x512 .f32) (b : Fin 4) (r q : Fin 512) :
    broadcastTo S4x512x512 (shapeCast S4x1x512 (multiReduction (F := Ideal) .add [1] S4x512 (mulf x x) 0x00000000#32
        reduces_S4x3x512_S4x512 (.inl rfl) rfl) shapeCasts_S4x512_S4x1x512) broadcasts_S4x1x512_S4x512x512 (ix3 b r q)
      = normSq (tileCloud x) b q :=
  (broadcastTo_a1c_abc_apply _ _ b r q).trans <| (shapeCast_ab_a1b_apply _ _ b 0 q).trans <| coordSum_apply _ b q

end Pay0

/-- The tile of squared distances at (batch `b`, query `r`, key `q`). -/
theorem distTile_apply (x0 x1 : Vec Ideal S4x3x512 .f32) (b : Fin 4) (r q : Fin 512) :
    k0_pay4 (F := Ideal) x0 x1 (ix3 b r q) = distStep (tileCloud x0) (tileCloud x1) b r q := by
  unfold k0_pay4 distStep
  simp only [subf_apply, addf_apply, mulf_apply, broadcast_apply,
    Pay0.queryCoord_apply 0 x0 _ b r q 0 rfl, Pay0.queryCoord_apply 1 x0 _ b r q 1 rfl, Pay0.queryCoord_apply 2 x0 _ b r q 2 rfl,
    Pay0.keyCoord_apply 0 x1 _ b r q 0 rfl, Pay0.keyCoord_apply 1 x1 _ b r q 1 rfl, Pay0.keyCoord_apply 2 x1 _ b r q 2 rfl]
  rw [Pay0.queryNorm_apply x0 b r q]
  rw [Pay0.keyNorm_apply x1 b r q]
  rfl

/-- The running minimum started at a first key tile, at (batch `b`, query `r`): the infimum over the tile's keys. -/
theorem startMin_apply (x0 x1 : Vec Ideal S4x3x512 .f32) (b : Fin 4) (r : Fin 512) :
    startMin (F := Ideal) x0 x1 (ix2 b r) = (Finset.univ : Finset (Fin 512)).inf fun q => distStep (tileCloud x0) (tileCloud x1) b r q := by
  show shapeCast S4x512 (k0_pay1 (F := Ideal) (k0_pay4 x0 x1)) shapeCasts_S4x512_S4x512 (ix2 b r) = _
  rw [shapeCast_self]
  unfold k0_pay1
  refine (Pay0.keyMin_apply (k0_pay4 (F := Ideal) x0 x1) b r).trans ?_
  exact congrArg (Finset.univ : Finset (Fin 512)).inf (funext fun q => distTile_apply x0 x1 b r q)

/-- The running minimum `s` lowered by a later key tile. -/
theorem lowerMin_apply (x0 x1 : Vec Ideal S4x3x512 .f32) (s : Vec Ideal S4x512 .f32) (b : Fin 4) (r : Fin 512) :
    lowerMin (F := Ideal) x0 x1 s (ix2 b r)
      = min (s (ix2 b r)) ((Finset.univ : Finset (Fin 512)).inf fun q => distStep (tileCloud x0) (tileCloud x1) b r q) := by
  show shapeCast S4x512 (minimumf s (k0_pay1 (F := Ideal) (k0_pay4 x0 x1))) shapeCasts_S4x512_S4x512 (ix2 b r) = _
  rw [shapeCast_self]
  refine congrArg (min (s (ix2 b r))) ?_
  unfold k0_pay1
  refine (Pay0.keyMin_apply (k0_pay4 (F := Ideal) x0 x1) b r).trans ?_
  exact congrArg (Finset.univ : Finset (Fin 512)).inf (funext fun q => distTile_apply x0 x1 b r q)

end Cert.KernelIdeal.Tile0

end
-- ==== Proof.KernelIdeal.Value0.lean ====
/-
  What the first pallas_call leaves in its output array, at the ideal values. Point `t = 16·i + j` reads query tile `i`
  and key tile `j` of the two clouds; after it the scratch holds, for each query of tile `i`, the infimum of the squared
  distances to the keys of tiles `0 … j`; the block written at `j = 15` holds the infimum over all keys; the sixteen
  blocks tile the array.
-/
import proofs.«160138_j85237920956691_1_alg».proof.Proof.KernelIdeal.Data0
import proofs.«160138_j85237920956691_1_alg».proof.Proof.KernelIdeal.Pay0

set_option maxRecDepth 16384

noncomputable section

namespace Cert.KernelIdeal.Tile0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Chamfer

variable (V : (c : Dev nD) → (b : Ref sig .tc) → Buf (Elt Ideal) ((c : Thread nD τ).loc b))

/-! ## The clouds and their tiles -/

/-- The query cloud and the key cloud: the arrays of the two input windows as the region finds them. -/
def qCloud (c : Dev nD) : Cloud 8192 := fun b k n => (V c (Pipeline.arrRef spec0 0) : S4x3x8192.Idx → EReal) (ix3 b k n)
def kCloud (c : Dev nD) : Cloud 8192 := fun b k n => (V c (Pipeline.arrRef spec0 1) : S4x3x8192.Idx → EReal) (ix3 b k n)

/-- The query tile's number `i` and the key tile's number `j` at point `t`. -/
def qNo (t : Fin cfg0.N) : Fin 16 := ⟨t.val / 16, by have := lt_of_lt_of_eq t.isLt (show cfg0.N = 256 from N_0); omega⟩
def kNo (t : Fin cfg0.N) : Fin 16 := ⟨t.val % 16, Nat.mod_lt _ (by norm_num)⟩

/-- The printed index maps over the grid: the query window moves with `i`, the key window with `j`, the output with `i`. -/
theorem index_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 0 ∧ win0_1.index t (2 : Fin 3) = t.val % 16
    ∧ win0_2.index t (0 : Fin 2) = 0 ∧ win0_2.index t (1 : Fin 2) = t.val / 16 :=
  (by decide +kernel : ∀ t : Fin grid0.N, _)

/-- The query tile at point `t` is tile `i` of the query cloud. -/
theorem qTile_cloud (c : Dev nD) (t : Fin cfg0.N) (b : Fin 4) (k : Fin 3) (r : Fin 512) :
    tileCloud (qTile V c t) b k r = qCloud V c b k (tileIx (qNo t) r) := by
  obtain ⟨e0, e1, e2, -⟩ := index_facts t
  show (V c (Pipeline.arrRef spec0 0) : S4x3x8192.Idx → EReal) (((cfg0.win 0).blk t).view.emb (ix3 b k r)) = _
  unfold qCloud
  refine congrArg _ (funext fun a => Fin.ext ?_)
  match a with
  | ⟨0, _⟩ => show win0_0.index t (0 : Fin 3) * 4 + 1 * b.val = b.val; omega
  | ⟨1, _⟩ => show win0_0.index t (1 : Fin 3) * 3 + 1 * k.val = k.val; omega
  | ⟨2, _⟩ => show win0_0.index t (2 : Fin 3) * 512 + 1 * r.val = 512 * (t.val / 16) + r.val; omega

/-- The key tile at point `t` is tile `j` of the key cloud. -/
theorem kTile_cloud (c : Dev nD) (t : Fin cfg0.N) (b : Fin 4) (k : Fin 3) (q : Fin 512) :
    tileCloud (kTile V c t) b k q = kCloud V c b k (tileIx (kNo t) q) := by
  obtain ⟨-, -, -, e0, e1, e2, -⟩ := index_facts t
  show (V c (Pipeline.arrRef spec0 1) : S4x3x8192.Idx → EReal) (((cfg0.win 1).blk t).view.emb (ix3 b k q)) = _
  unfold kCloud
  refine congrArg _ (funext fun a => Fin.ext ?_)
  match a with
  | ⟨0, _⟩ => show win0_1.index t (0 : Fin 3) * 4 + 1 * b.val = b.val; omega
  | ⟨1, _⟩ => show win0_1.index t (1 : Fin 3) * 3 + 1 * k.val = k.val; omega
  | ⟨2, _⟩ => show win0_1.index t (2 : Fin 3) * 512 + 1 * q.val = 512 * (t.val % 16) + q.val; omega

/-- So a distance inside the pair of tiles is the distance between the clouds' points. -/
theorem dist_tiles (c : Dev nD) (t : Fin cfg0.N) (b : Fin 4) (r q : Fin 512) :
    distStep (tileCloud (qTile V c t)) (tileCloud (kTile V c t)) b r q
      = distStep (qCloud V c) (kCloud V c) b (tileIx (qNo t) r) (tileIx (kNo t) q) := by
  simp only [distStep, normSq, qTile_cloud, kTile_cloud]

/-! ## The running minimum in closed form -/

/-- The infimum of the distances from query `n` to the keys of tile `j`. -/
def tileInf (c : Dev nD) (b : Fin 4) (n : Fin 8192) (j : Fin 16) : EReal :=
  (Finset.univ : Finset (Fin 512)).inf fun q => distStep (qCloud V c) (kCloud V c) b n (tileIx j q)

/-- After point `t` the scratch holds, at query `r` of tile `i`, the infimum over the key tiles up to `j`. -/
theorem minAt_closed (c : Dev nD) : ∀ (n : ℕ) (hn : n < cfg0.N) (b : Fin 4) (r : Fin 512),
    minAt V c n hn (ix2 b r) = (upTo (n % 16)).inf (tileInf V c b (tileIx (qNo ⟨n, hn⟩) r))
  | n, hn, b, r => by
    have hN : n < 256 := lt_of_lt_of_eq hn (show cfg0.N = 256 from N_0)
    by_cases h0 : n % 16 = 0
    · rw [minAt_first V c ⟨n, hn⟩ h0, startMin_apply, h0, upTo_zero]
      unfold tileInf
      refine Finset.inf_congr rfl fun q _ => ?_
      rw [dist_tiles]
      exact congrArg _ (congrArg (fun j => tileIx j q) (Fin.ext h0))
    · have hpos : n ≠ 0 := fun h => h0 (by rw [h])
      rw [minAt_later V c ⟨n, hn⟩ h0, lowerMin_apply]
      have ih := minAt_closed c (n - 1) (Nat.lt_of_le_of_lt (Nat.sub_le _ _) hn) b r
      have hq : qNo ⟨n - 1, Nat.lt_of_le_of_lt (Nat.sub_le _ _) hn⟩ = qNo ⟨n, hn⟩ := Fin.ext (by show (n - 1) / 16 = n / 16; omega)
      have hk : (n - 1) % 16 + 1 = n % 16 := by omega
      show min (minAt V c (n - 1) _ (ix2 b r)) _ = _
      rw [ih, hq]
      have hlt : (n - 1) % 16 + 1 < 16 := by omega
      rw [show (upTo (n % 16)).inf (tileInf V c b (tileIx (qNo ⟨n, hn⟩) r))
          = (upTo ((n - 1) % 16 + 1)).inf (tileInf V c b (tileIx (qNo ⟨n, hn⟩) r)) from by rw [hk], upTo_succ _ _ hlt]
      refine congrArg _ ?_
      unfold tileInf
      refine Finset.inf_congr rfl fun q _ => ?_
      rw [dist_tiles]
      exact congrArg _ (congrArg (fun j => tileIx j q) (Fin.ext (by show n % 16 = (n - 1) % 16 + 1; omega)))
  termination_by n => n
  decreasing_by omega

/-! ## The output array after the run -/

/-- For each query, the squared distance to its nearest key. -/
def nearest (c : Dev nD) : S4x8192.Idx → EReal := fun i =>
  (Finset.univ : Finset (Fin 8192)).inf fun m =>
    distStep (qCloud V c) (kCloud V c) ⟨(i 0).val, (i 0).isLt⟩ ⟨(i 1).val, (i 1).isLt⟩ m

/-- What the last key tile's point writes back is its block of `nearest`. -/
theorem flushed_eq (c : Dev nD) (t : Fin cfg0.N) (hf : (cfg0.win 2).flush t = true) :
    (dat V c).flushed 2 t = ((cfg0.win 2).blk t).view.read (Elt Ideal) (nearest V c) := by
  have h15 : t.val % 16 = 15 := (flush0_2 t).mp hf
  obtain ⟨-, -, -, -, -, -, e0, e1⟩ := index_facts t
  show (cfg0.win 2).cut (grid0.coords t) ((dat V c).after 2 t) = _
  rw [after_out]
  funext y
  obtain ⟨b, r, rfl⟩ : ∃ (b : Fin 4) (r : Fin 512), y = ix2 b r := ⟨y 0, y 1, eq_ix2 y⟩
  show minAt V c t.val t.isLt (ix2 b r) = nearest V c (((cfg0.win 2).blk t).view.emb (ix2 b r))
  rw [minAt_closed, h15]
  unfold tileInf
  rw [inf_upTo_last (fun m => distStep (qCloud V c) (kCloud V c) b (tileIx (qNo t) r) m)]
  unfold nearest
  refine Finset.inf_congr rfl fun m _ => ?_
  have hb : (⟨((((cfg0.win 2).blk t).view.emb (ix2 b r)) 0).val, ((((cfg0.win 2).blk t).view.emb (ix2 b r)) 0).isLt⟩ : Fin 4) = b :=
    Fin.ext (by show win0_2.index t (0 : Fin 2) * 4 + 1 * b.val = b.val; omega)
  have hr : (⟨((((cfg0.win 2).blk t).view.emb (ix2 b r)) 1).val, ((((cfg0.win 2).blk t).view.emb (ix2 b r)) 1).isLt⟩ : Fin 8192) = tileIx (qNo t) r :=
    Fin.ext (by show win0_2.index t (1 : Fin 2) * 512 + 1 * r.val = 512 * (t.val / 16) + r.val; omega)
  rw [hb, hr]

/-- An index of the array is in point `t`'s block iff each coordinate is in the block's range on its axis. -/
theorem mem_blk (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole (Pipeline.arrRef spec0 2)).slice (win0_2.rect t)).set ↔ _
  rw [View.set_slice_whole, Rect.mem_set_unit]
  exact Iff.rfl

/-- Every query lies in the block its tile's last point writes back. -/
theorem covered (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hlt : 16 * ((i 1).val / 512) + 15 < cfg0.N := by rw [show cfg0.N = 256 from N_0]; omega
  refine ⟨⟨16 * ((i 1).val / 512) + 15, hlt⟩, (flush0_2 _).mpr (by show (16 * ((i 1).val / 512) + 15) % 16 = 15; omega), ?_⟩
  obtain ⟨-, -, -, -, -, -, e0, e1⟩ := index_facts ⟨16 * ((i 1).val / 512) + 15, hlt⟩
  rw [mem_blk]
  intro a
  match a with
  | ⟨0, _⟩ => show win0_2.index _ (0 : Fin 2) * 4 ≤ (i 0).val ∧ (i 0).val < win0_2.index _ (0 : Fin 2) * 4 + 4; omega
  | ⟨1, _⟩ =>
    show win0_2.index _ (1 : Fin 2) * 512 ≤ (i 1).val ∧ (i 1).val < win0_2.index _ (1 : Fin 2) * 512 + 512
    have e1' : win0_2.index ⟨16 * ((i 1).val / 512) + 15, hlt⟩ (1 : Fin 2) = (16 * ((i 1).val / 512) + 15) / 16 := e1
    omega

/-- THE ARRAY after the run: every query's nearest-key distance. -/
theorem result (c : Dev nD) : (dat V c).arrAt 2 cfg0.N = nearest V c :=
  (dat V c).arrAt_eq_of_cover 2 (nearest V c) (fun t hf => flushed_eq V c t hf) covered

end Cert.KernelIdeal.Tile0

end
-- ==== Proof.KernelIdeal.Pay1.lean ====
/-
  The second pallas_call's tile arithmetic read at an index, at the ideal values: the tile of squared distances, its
  minimum along the key axis, and the two ways the running minimum is updated.
-/
import proofs.«160138_j85237920956691_1_alg».proof.Proof.KernelIdeal.Tile1
import proofs.«160138_j85237920956691_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile1

open Idealize.ShloMosaic Idealize.ShloMosaic.TcCoe Idealize.ShloMosaic.ValueIdx
open Cert.KernelIdeal Cert.KernelIdeal.Gen Cert.Chamfer

/-- A tile of 512 points as a cloud: coordinate `c` of point `r` in batch `b`. -/
def tileCloud (x : Vec Ideal S4x3x512 .f32) : Cloud 512 := fun b c r => x (ix3 b c r)

namespace Pay1

/-! ## The layout operations of the tile, read at coordinates

Each lemma reads one operation that moves values without computing on them at an index written by its coordinates. -/

section Layout
variable {α : Type}

/-- An `[a, b]` array cast to `[a, b, 1]` reads, at `(i, j, u)`, the operand at `(i, j)`: the row-major positions
`(i·b + j)·1 + u` and `i·b + j` agree because `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`: the row-major positions
`(i·1 + u)·b + j` and `i·b + j` agree because `u = 0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of batch `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The two reductions of the tile, read at coordinates -/

/-- The sum over the three coordinates of a `[4, 3, 512]` tile, at (batch `b`, point `r`): the reduced index with
coordinate `c` put back on the middle axis is `(b, c, r)`. -/
theorem coordSum_apply (v : FVec Ideal S4x3x512 .f32) (b : Fin 4) (r : Fin 512) :
    multiReduction (F := Ideal) .add [1] S4x512 v 0x00000000#32 reduces_S4x3x512_S4x512 (.inl rfl) rfl (ix2 b r)
      = ∑ c : Fin 3, v (ix3 b c r) := by
  refine (Ideal.multiReduction_add_single v _ reduces_S4x3x512_S4x512 _ _ (ix2 b r)).trans ?_
  show ∑ c : Fin 3, v (reduces_S4x3x512_S4x512.lift (ix2 b r) c) = ∑ c : Fin 3, v (ix3 b c r)
  refine Finset.sum_congr rfl fun c _ => congrArg v ?_
  funext ax
  match ax with
  | ⟨0, _⟩ => exact Fin.ext rfl
  | ⟨1, _⟩ => exact Fin.ext rfl
  | ⟨2, _⟩ => exact Fin.ext rfl

/-- The minimum along the key axis of a `[4, 512, 512]` tile, started from `+∞`, at (batch `b`, query `r`): the
infimum over the keys `q` of the tile at `(b, r, q)`. -/
theorem keyMin_apply (v : FVec Ideal S4x512x512 .f32) (b : Fin 4) (r : Fin 512) :
    multiReduction (F := Ideal) .minimumf [2] S4x512 v 0x7F800000#32 reduces_S4x512x512_S4x512 (.inl rfl) rfl (ix2 b r)
      = (Finset.univ : Finset (Fin 512)).inf fun q => v (ix3 b r q) := by
  refine (multiReduction_minimumf_eq_fold v _ reduces_S4x512x512_S4x512 _ _ (ix2 b r)).trans ?_
  refine (reduces_S4x512x512_S4x512.fold_filter_drop_single _ _ v (ix2 b r)).trans ?_
  refine (fold_min_posInf (ι := Fin 512) fun q => v (reduces_S4x512x512_S4x512.lift (ix2 b r) q)).trans ?_
  refine congrArg (Finset.univ : Finset (Fin 512)).inf (funext fun q => congrArg v ?_)
  funext ax
  match ax with
  | ⟨0, _⟩ => exact Fin.ext rfl
  | ⟨1, _⟩ => exact Fin.ext rfl
  | ⟨2, _⟩ => exact Fin.ext rfl

/-! ## The four ways a tile of points enters the tile of distances -/

/-- Coordinate `c` of the query tile, spread along the key axis: the slice of coordinate `c`, its two casts and the
broadcast read, at `(b, r, q)`, the tile at `(b, c, r)`. -/
theorem queryCoord_apply (o : ℕ) (x : Vec Ideal S4x3x512 .f32) (h1 : S4x3x512.Slices ![0, o, 0] S4x1x512)
    (b : Fin 4) (r q : Fin 512) (c : Fin 3) (hc : c.val = o) :
    broadcastTo S4x512x512 (shapeCast S4x512x1 (shapeCast S4x512 (extractStridedSlice S4x1x512 ![0, o, 0] x h1)
        shapeCasts_S4x1x512_S4x512) shapeCasts_S4x512_S4x512x1) broadcasts_S4x512x1_S4x512x512 (ix3 b r q)
      = x (ix3 b c r) :=
  (broadcastTo_ab1_abc_apply _ _ b r q).trans <| (shapeCast_ab_ab1_apply _ _ b r 0).trans <|
    (shapeCast_a1b_ab_apply _ _ b r).trans <| slice3_axis1_apply o x h1 b 0 r c hc

/-- Coordinate `c` of the key tile, spread along the query axis: read at `(b, r, q)` it is the tile at `(b, c, q)`. -/
theorem keyCoord_apply (o : ℕ) (x : Vec Ideal S4x3x512 .f32) (h1 : S4x3x512.Slices ![0, o, 0] S4x1x512)
    (b : Fin 4) (r q : Fin 512) (c : Fin 3) (hc : c.val = o) :
    broadcastTo S4x512x512 (shapeCast S4x1x512 (shapeCast S4x512 (extractStridedSlice S4x1x512 ![0, o, 0] x h1)
        shapeCasts_S4x1x512_S4x512) shapeCasts_S4x512_S4x1x512) broadcasts_S4x1x512_S4x512x512 (ix3 b r q)
      = x (ix3 b c q) :=
  (broadcastTo_a1c_abc_apply _ _ b r q).trans <| (shapeCast_ab_a1b_apply _ _ b 0 q).trans <|
    (shapeCast_a1b_ab_apply _ _ b q).trans <| slice3_axis1_apply o x h1 b 0 q c hc

/-- The squared norms of the query tile's points, spread along the key axis. -/
theorem queryNorm_apply (x : Vec Ideal S4x3x512 .f32) (b : Fin 4) (r q : Fin 512) :
    broadcastTo S4x512x512 (shapeCast S4x512x1 (multiReduction (F := Ideal) .add [1] S4x512 (mulf x x) 0x00000000#32
        reduces_S4x3x512_S4x512 (.inl rfl) rfl) shapeCasts_S4x512_S4x512x1) broadcasts_S4x512x1_S4x512x512 (ix3 b r q)
      = normSq (tileCloud x) b r :=
  (broadcastTo_ab1_abc_apply _ _ b r q).trans <| (shapeCast_ab_ab1_apply _ _ b r 0).trans <| coordSum_apply _ b r

/-- The squared norms of the key tile's points, spread along the query axis. -/
theorem keyNorm_apply (x : Vec Ideal S4x3x512 .f32) (b : Fin 4) (r q : Fin 512) :
    broadcastTo S4x512x512 (shapeCast S4x1x512 (multiReduction (F := Ideal) .add [1] S4x512 (mulf x x) 0x00000000#32
        reduces_S4x3x512_S4x512 (.inl rfl) rfl) shapeCasts_S4x512_S4x1x512) broadcasts_S4x1x512_S4x512x512 (ix3 b r q)
      = normSq (tileCloud x) b q :=
  (broadcastTo_a1c_abc_apply _ _ b r q).trans <| (shapeCast_ab_a1b_apply _ _ b 0 q).trans <| coordSum_apply _ b q

end Pay1

/-- The tile of squared distances at (batch `b`, query `r`, key `q`). -/
theorem distTile_apply (x0 x1 : Vec Ideal S4x3x512 .f32) (b : Fin 4) (r q : Fin 512) :
    k1_pay4 (F := Ideal) x0 x1 (ix3 b r q) = distStep (tileCloud x0) (tileCloud x1) b r q := by
  unfold k1_pay4 distStep
  simp only [subf_apply, addf_apply, mulf_apply, broadcast_apply,
    Pay1.queryCoord_apply 0 x0 _ b r q 0 rfl, Pay1.queryCoord_apply 1 x0 _ b r q 1 rfl, Pay1.queryCoord_apply 2 x0 _ b r q 2 rfl,
    Pay1.keyCoord_apply 0 x1 _ b r q 0 rfl, Pay1.keyCoord_apply 1 x1 _ b r q 1 rfl, Pay1.keyCoord_apply 2 x1 _ b r q 2 rfl]
  rw [Pay1.queryNorm_apply x0 b r q]
  rw [Pay1.keyNorm_apply x1 b r q]
  rfl

/-- The running minimum started at a first key tile, at (batch `b`, query `r`): the infimum over the tile's keys. -/
theorem startMin_apply (x0 x1 : Vec Ideal S4x3x512 .f32) (b : Fin 4) (r : Fin 512) :
    startMin (F := Ideal) x0 x1 (ix2 b r) = (Finset.univ : Finset (Fin 512)).inf fun q => distStep (tileCloud x0) (tileCloud x1) b r q := by
  show shapeCast S4x512 (k1_pay1 (F := Ideal) (k1_pay4 x0 x1)) shapeCasts_S4x512_S4x512 (ix2 b r) = _
  rw [shapeCast_self]
  unfold k1_pay1
  refine (Pay1.keyMin_apply (k1_pay4 (F := Ideal) x0 x1) b r).trans ?_
  exact congrArg (Finset.univ : Finset (Fin 512)).inf (funext fun q => distTile_apply x0 x1 b r q)

/-- The running minimum `s` lowered by a later key tile. -/
theorem lowerMin_apply (x0 x1 : Vec Ideal S4x3x512 .f32) (s : Vec Ideal S4x512 .f32) (b : Fin 4) (r : Fin 512) :
    lowerMin (F := Ideal) x0 x1 s (ix2 b r)
      = min (s (ix2 b r)) ((Finset.univ : Finset (Fin 512)).inf fun q => distStep (tileCloud x0) (tileCloud x1) b r q) := by
  show shapeCast S4x512 (minimumf s (k1_pay1 (F := Ideal) (k1_pay4 x0 x1))) shapeCasts_S4x512_S4x512 (ix2 b r) = _
  rw [shapeCast_self]
  refine congrArg (min (s (ix2 b r))) ?_
  unfold k1_pay1
  refine (Pay1.keyMin_apply (k1_pay4 (F := Ideal) x0 x1) b r).trans ?_
  exact congrArg (Finset.univ : Finset (Fin 512)).inf (funext fun q => distTile_apply x0 x1 b r q)

end Cert.KernelIdeal.Tile1

end
-- ==== Proof.KernelIdeal.Value1.lean ====
/-
  What the second pallas_call leaves in its output array, at the ideal values. Point `t = 16·i + j` reads query tile `i`
  and key tile `j` of the two clouds; after it the scratch holds, for each query of tile `i`, the infimum of the squared
  distances to the keys of tiles `0 … j`; the block written at `j = 15` holds the infimum over all keys; the sixteen
  blocks tile the array.
-/
import proofs.«160138_j85237920956691_1_alg».proof.Proof.KernelIdeal.Data1
import proofs.«160138_j85237920956691_1_alg».proof.Proof.KernelIdeal.Pay1

set_option maxRecDepth 16384

noncomputable section

namespace Cert.KernelIdeal.Tile1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Chamfer

variable (V : (c : Dev nD) → (b : Ref sig .tc) → Buf (Elt Ideal) ((c : Thread nD τ).loc b))

/-! ## The clouds and their tiles -/

/-- The query cloud and the key cloud: the arrays of the two input windows as the region finds them. -/
def qCloud (c : Dev nD) : Cloud 8192 := fun b k n => (V c (Pipeline.arrRef spec1 0) : S4x3x8192.Idx → EReal) (ix3 b k n)
def kCloud (c : Dev nD) : Cloud 8192 := fun b k n => (V c (Pipeline.arrRef spec1 1) : S4x3x8192.Idx → EReal) (ix3 b k n)

/-- The query tile's number `i` and the key tile's number `j` at point `t`. -/
def qNo (t : Fin cfg1.N) : Fin 16 := ⟨t.val / 16, by have := lt_of_lt_of_eq t.isLt (show cfg1.N = 256 from N_1); omega⟩
def kNo (t : Fin cfg1.N) : Fin 16 := ⟨t.val % 16, Nat.mod_lt _ (by norm_num)⟩

/-- The printed index maps over the grid: the query window moves with `i`, the key window with `j`, the output with `i`. -/
theorem index_facts : ∀ t : Fin cfg1.N,
    win1_0.index t (0 : Fin 3) = 0 ∧ win1_0.index t (1 : Fin 3) = 0 ∧ win1_0.index t (2 : Fin 3) = t.val / 16
    ∧ win1_1.index t (0 : Fin 3) = 0 ∧ win1_1.index t (1 : Fin 3) = 0 ∧ win1_1.index t (2 : Fin 3) = t.val % 16
    ∧ win1_2.index t (0 : Fin 2) = 0 ∧ win1_2.index t (1 : Fin 2) = t.val / 16 :=
  (by decide +kernel : ∀ t : Fin grid1.N, _)

/-- The query tile at point `t` is tile `i` of the query cloud. -/
theorem qTile_cloud (c : Dev nD) (t : Fin cfg1.N) (b : Fin 4) (k : Fin 3) (r : Fin 512) :
    tileCloud (qTile V c t) b k r = qCloud V c b k (tileIx (qNo t) r) := by
  obtain ⟨e0, e1, e2, -⟩ := index_facts t
  show (V c (Pipeline.arrRef spec1 0) : S4x3x8192.Idx → EReal) (((cfg1.win 0).blk t).view.emb (ix3 b k r)) = _
  unfold qCloud
  refine congrArg _ (funext fun a => Fin.ext ?_)
  match a with
  | ⟨0, _⟩ => show win1_0.index t (0 : Fin 3) * 4 + 1 * b.val = b.val; omega
  | ⟨1, _⟩ => show win1_0.index t (1 : Fin 3) * 3 + 1 * k.val = k.val; omega
  | ⟨2, _⟩ => show win1_0.index t (2 : Fin 3) * 512 + 1 * r.val = 512 * (t.val / 16) + r.val; omega

/-- The key tile at point `t` is tile `j` of the key cloud. -/
theorem kTile_cloud (c : Dev nD) (t : Fin cfg1.N) (b : Fin 4) (k : Fin 3) (q : Fin 512) :
    tileCloud (kTile V c t) b k q = kCloud V c b k (tileIx (kNo t) q) := by
  obtain ⟨-, -, -, e0, e1, e2, -⟩ := index_facts t
  show (V c (Pipeline.arrRef spec1 1) : S4x3x8192.Idx → EReal) (((cfg1.win 1).blk t).view.emb (ix3 b k q)) = _
  unfold kCloud
  refine congrArg _ (funext fun a => Fin.ext ?_)
  match a with
  | ⟨0, _⟩ => show win1_1.index t (0 : Fin 3) * 4 + 1 * b.val = b.val; omega
  | ⟨1, _⟩ => show win1_1.index t (1 : Fin 3) * 3 + 1 * k.val = k.val; omega
  | ⟨2, _⟩ => show win1_1.index t (2 : Fin 3) * 512 + 1 * q.val = 512 * (t.val % 16) + q.val; omega

/-- So a distance inside the pair of tiles is the distance between the clouds' points. -/
theorem dist_tiles (c : Dev nD) (t : Fin cfg1.N) (b : Fin 4) (r q : Fin 512) :
    distStep (tileCloud (qTile V c t)) (tileCloud (kTile V c t)) b r q
      = distStep (qCloud V c) (kCloud V c) b (tileIx (qNo t) r) (tileIx (kNo t) q) := by
  simp only [distStep, normSq, qTile_cloud, kTile_cloud]

/-! ## The running minimum in closed form -/

/-- The infimum of the distances from query `n` to the keys of tile `j`. -/
def tileInf (c : Dev nD) (b : Fin 4) (n : Fin 8192) (j : Fin 16) : EReal :=
  (Finset.univ : Finset (Fin 512)).inf fun q => distStep (qCloud V c) (kCloud V c) b n (tileIx j q)

/-- After point `t` the scratch holds, at query `r` of tile `i`, the infimum over the key tiles up to `j`. -/
theorem minAt_closed (c : Dev nD) : ∀ (n : ℕ) (hn : n < cfg1.N) (b : Fin 4) (r : Fin 512),
    minAt V c n hn (ix2 b r) = (upTo (n % 16)).inf (tileInf V c b (tileIx (qNo ⟨n, hn⟩) r))
  | n, hn, b, r => by
    have hN : n < 256 := lt_of_lt_of_eq hn (show cfg1.N = 256 from N_1)
    by_cases h0 : n % 16 = 0
    · rw [minAt_first V c ⟨n, hn⟩ h0, startMin_apply, h0, upTo_zero]
      unfold tileInf
      refine Finset.inf_congr rfl fun q _ => ?_
      rw [dist_tiles]
      exact congrArg _ (congrArg (fun j => tileIx j q) (Fin.ext h0))
    · have hpos : n ≠ 0 := fun h => h0 (by rw [h])
      rw [minAt_later V c ⟨n, hn⟩ h0, lowerMin_apply]
      have ih := minAt_closed c (n - 1) (Nat.lt_of_le_of_lt (Nat.sub_le _ _) hn) b r
      have hq : qNo ⟨n - 1, Nat.lt_of_le_of_lt (Nat.sub_le _ _) hn⟩ = qNo ⟨n, hn⟩ := Fin.ext (by show (n - 1) / 16 = n / 16; omega)
      have hk : (n - 1) % 16 + 1 = n % 16 := by omega
      show min (minAt V c (n - 1) _ (ix2 b r)) _ = _
      rw [ih, hq]
      have hlt : (n - 1) % 16 + 1 < 16 := by omega
      rw [show (upTo (n % 16)).inf (tileInf V c b (tileIx (qNo ⟨n, hn⟩) r))
          = (upTo ((n - 1) % 16 + 1)).inf (tileInf V c b (tileIx (qNo ⟨n, hn⟩) r)) from by rw [hk], upTo_succ _ _ hlt]
      refine congrArg _ ?_
      unfold tileInf
      refine Finset.inf_congr rfl fun q _ => ?_
      rw [dist_tiles]
      exact congrArg _ (congrArg (fun j => tileIx j q) (Fin.ext (by show n % 16 = (n - 1) % 16 + 1; omega)))
  termination_by n => n
  decreasing_by omega

/-! ## The output array after the run -/

/-- For each query, the squared distance to its nearest key. -/
def nearest (c : Dev nD) : S4x8192.Idx → EReal := fun i =>
  (Finset.univ : Finset (Fin 8192)).inf fun m =>
    distStep (qCloud V c) (kCloud V c) ⟨(i 0).val, (i 0).isLt⟩ ⟨(i 1).val, (i 1).isLt⟩ m

/-- What the last key tile's point writes back is its block of `nearest`. -/
theorem flushed_eq (c : Dev nD) (t : Fin cfg1.N) (hf : (cfg1.win 2).flush t = true) :
    (dat V c).flushed 2 t = ((cfg1.win 2).blk t).view.read (Elt Ideal) (nearest V c) := by
  have h15 : t.val % 16 = 15 := (flush1_2 t).mp hf
  obtain ⟨-, -, -, -, -, -, e0, e1⟩ := index_facts t
  show (cfg1.win 2).cut (grid1.coords t) ((dat V c).after 2 t) = _
  rw [after_out]
  funext y
  obtain ⟨b, r, rfl⟩ : ∃ (b : Fin 4) (r : Fin 512), y = ix2 b r := ⟨y 0, y 1, eq_ix2 y⟩
  show minAt V c t.val t.isLt (ix2 b r) = nearest V c (((cfg1.win 2).blk t).view.emb (ix2 b r))
  rw [minAt_closed, h15]
  unfold tileInf
  rw [inf_upTo_last (fun m => distStep (qCloud V c) (kCloud V c) b (tileIx (qNo t) r) m)]
  unfold nearest
  refine Finset.inf_congr rfl fun m _ => ?_
  have hb : (⟨((((cfg1.win 2).blk t).view.emb (ix2 b r)) 0).val, ((((cfg1.win 2).blk t).view.emb (ix2 b r)) 0).isLt⟩ : Fin 4) = b :=
    Fin.ext (by show win1_2.index t (0 : Fin 2) * 4 + 1 * b.val = b.val; omega)
  have hr : (⟨((((cfg1.win 2).blk t).view.emb (ix2 b r)) 1).val, ((((cfg1.win 2).blk t).view.emb (ix2 b r)) 1).isLt⟩ : Fin 8192) = tileIx (qNo t) r :=
    Fin.ext (by show win1_2.index t (1 : Fin 2) * 512 + 1 * r.val = 512 * (t.val / 16) + r.val; omega)
  rw [hb, hr]

/-- An index of the array is in point `t`'s block iff each coordinate is in the block's range on its axis. -/
theorem mem_blk (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole (Pipeline.arrRef spec1 2)).slice (win1_2.rect t)).set ↔ _
  rw [View.set_slice_whole, Rect.mem_set_unit]
  exact Iff.rfl

/-- Every query lies in the block its tile's last point writes back. -/
theorem covered (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hlt : 16 * ((i 1).val / 512) + 15 < cfg1.N := by rw [show cfg1.N = 256 from N_1]; omega
  refine ⟨⟨16 * ((i 1).val / 512) + 15, hlt⟩, (flush1_2 _).mpr (by show (16 * ((i 1).val / 512) + 15) % 16 = 15; omega), ?_⟩
  obtain ⟨-, -, -, -, -, -, e0, e1⟩ := index_facts ⟨16 * ((i 1).val / 512) + 15, hlt⟩
  rw [mem_blk]
  intro a
  match a with
  | ⟨0, _⟩ => show win1_2.index _ (0 : Fin 2) * 4 ≤ (i 0).val ∧ (i 0).val < win1_2.index _ (0 : Fin 2) * 4 + 4; omega
  | ⟨1, _⟩ =>
    show win1_2.index _ (1 : Fin 2) * 512 ≤ (i 1).val ∧ (i 1).val < win1_2.index _ (1 : Fin 2) * 512 + 512
    have e1' : win1_2.index ⟨16 * ((i 1).val / 512) + 15, hlt⟩ (1 : Fin 2) = (16 * ((i 1).val / 512) + 15) / 16 := e1
    omega

/-- THE ARRAY after the run: every query's nearest-key distance. -/
theorem result (c : Dev nD) : (dat V c).arrAt 2 cfg1.N = nearest V c :=
  (dat V c).arrAt_eq_of_cover 2 (nearest V c) (fun t hf => flushed_eq V c t hf) covered

end Cert.KernelIdeal.Tile1

end
-- ==== Proof.RefValue.lean ====
/-
  The reference's two nearest-neighbour arrays read at an index, at the ideal values: each entry is the infimum, over
  the other cloud's points, of the squared distance with the inner product subtracted in one piece.
-/
import proofs.«160138_j85237920956691_1_alg».proof.Proof.Gen.ReferenceIdeal.Read
import proofs.«160138_j85237920956691_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.Chamfer

/-- An argument array as a cloud: coordinate `c` of point `n` in batch `b`. -/
def cloud (x : (⟨S4x3x8192, .f32⟩ : BufTy).Contents (Elt Ideal)) : Cloud 8192 := fun b c n => x (ix3 b c n)

/-- The minimum over the last axis of a [4, 8192, 8192] array from the word of +∞, read at (b, n): the infimum over m of the
    entries (b, n, m). The one-axis reduce is a fold of `min` over the dropped axis's coordinates; the index with the coordinate
    inserted is (b, n, m); and a fold of `min` from +∞ over a whole index type is the infimum. -/
private theorem min_last (d : FVec Ideal S4x8192x8192 .f32) (b : Fin 4) (n : Fin 8192) :
    Host.reduce (FloatOps.minimumf (F := Ideal) (φ := .f32)) d (Read.val_main_cst_2 (F := Ideal)) reducesTo_S4x8192x8192_S4x8192_d2 h_S_ (ix2 b n)
      = (Finset.univ : Finset (Fin 8192)).inf fun m => d (ix3 b n m) := by
  have h : S4x8192x8192.Reduces [2] S4x8192 := by decide
  rw [Host.reduce_eq_fold_single (FloatOps.minimumf (F := Ideal) (φ := .f32)) d _ reducesTo_S4x8192x8192_S4x8192_d2 h h_S_]
  have hf : (d ∘ h.lift (ix2 b n)) = fun m : Fin 8192 => d (ix3 b n m) :=
    funext fun m => congrArg d (funext fun a => Fin.ext (by match a with | ⟨0, _⟩ => rfl | ⟨1, _⟩ => rfl | ⟨2, _⟩ => rfl))
  exact (congrArg (fun f => Finset.fold min posInf f (Finset.univ : Finset (Fin 8192))) hf).trans (fold_min_posInf _)

/-- The minimum over the middle axis likewise, read at (b, m): the infimum over n of the entries (b, n, m). -/
private theorem min_middle (d : FVec Ideal S4x8192x8192 .f32) (b : Fin 4) (m : Fin 8192) :
    Host.reduce (FloatOps.minimumf (F := Ideal) (φ := .f32)) d (Read.val_main_cst_3 (F := Ideal)) reducesTo_S4x8192x8192_S4x8192_d1 h_S_ (ix2 b m)
      = (Finset.univ : Finset (Fin 8192)).inf fun n => d (ix3 b n m) := by
  have h : S4x8192x8192.Reduces [1] S4x8192 := by decide
  rw [Host.reduce_eq_fold_single (FloatOps.minimumf (F := Ideal) (φ := .f32)) d _ reducesTo_S4x8192x8192_S4x8192_d1 h h_S_]
  have hf : (d ∘ h.lift (ix2 b m)) = fun n : Fin 8192 => d (ix3 b n m) :=
    funext fun n => congrArg d (funext fun a => Fin.ext (by match a with | ⟨0, _⟩ => rfl | ⟨1, _⟩ => rfl | ⟨2, _⟩ => rfl))
  exact (congrArg (fun f => Finset.fold min posInf f (Finset.univ : Finset (Fin 8192))) hf).trans (fold_min_posInf _)

/-- The distance array at (b, n, m): the two row sums of squares (each from the zero word, over the three coordinates), added, less
    the word of 2.0 times the inner product over the three coordinates. Every layout step only moves the index: the transposed
    arrays at (b, n, k) and (b, m, k) are the arguments at (b, k, n) and (b, k, m). -/
private theorem dist_at (x y : (⟨S4x3x8192, .f32⟩ : BufTy).Contents (Elt Ideal)) (b : Fin 4) (n m : Fin 8192) :
    Read.val_main_v14 (F := Ideal) x y (ix3 b n m) = distDot (cloud x) (cloud y) b n m := by
  rw [Read.val_main_v14_apply, Read.val_main_v11_apply, Read.val_main_v13_apply, Read.val_main_v9_apply, Read.val_main_v10_apply,
    Read.val_main_v7_apply, Read.val_main_v8_apply, Read.val_main_v3_apply, Read.val_main_v5_apply, Read.val_main_v12_apply,
    Read.val_main_v6_apply, Read.val_main_cst_apply, Read.val_main_cst_0_apply, Read.val_main_cst_1_apply]
  simp only [Read.val_main_v2_apply, Read.val_main_v4_apply, Read.val_main_v0_apply, Read.val_main_v1_apply]
  have e1 : ∀ k : Fin 3, Read.idx_main_v0 (Read.idx_main_v3 (Read.idx_main_v7 (Read.idx_main_v9 (ix3 b n m))) k) = ix3 b k n :=
    fun k => funext fun a => Fin.ext (by match a with | ⟨0, _⟩ => rfl | ⟨1, _⟩ => rfl | ⟨2, _⟩ => rfl)
  have e2 : ∀ k : Fin 3, Read.idx_main_v1 (Read.idx_main_v5 (Read.idx_main_v8 (Read.idx_main_v10 (ix3 b n m))) k) = ix3 b k m :=
    fun k => funext fun a => Fin.ext (by match a with | ⟨0, _⟩ => rfl | ⟨1, _⟩ => rfl | ⟨2, _⟩ => rfl)
  have e3 : ∀ k : Fin 3, Read.idx_main_v0 (Read.lidx_main_v6 (ix3 b n m) k) = ix3 b k n :=
    fun k => funext fun a => Fin.ext (by match a with | ⟨0, _⟩ => rfl | ⟨1, _⟩ => rfl | ⟨2, _⟩ => rfl)
  have e4 : ∀ k : Fin 3, Read.idx_main_v1 (Read.ridx_main_v6 (ix3 b n m) k) = ix3 b k m :=
    fun k => funext fun a => Fin.ext (by match a with | ⟨0, _⟩ => rfl | ⟨1, _⟩ => rfl | ⟨2, _⟩ => rfl)
  simp only [e1, e2, e3, e4, Ideal.addf_def, Ideal.subf_def, Ideal.mulf_def, Ideal.ofBits_def, Ideal.ofBits_zero_f32, zero_add]
  rfl

/-- For each point of the first cloud, the squared distance to its nearest point of the second. -/
theorem nearest_of_x (x y : (⟨S4x3x8192, .f32⟩ : BufTy).Contents (Elt Ideal)) (b : Fin 4) (n : Fin 8192) :
    Read.val_main_v15 (F := Ideal) x y (ix2 b n)
      = (Finset.univ : Finset (Fin 8192)).inf fun m => distDot (cloud x) (cloud y) b n m := by
  unfold Read.val_main_v15
  generalize hd : Read.val_main_v14 (F := Ideal) x y = d
  refine (min_last d b n).trans ?_
  subst hd
  exact Finset.inf_congr rfl fun m _ => dist_at x y b n m

/-- For each point of the second cloud, the squared distance to its nearest point of the first. -/
theorem nearest_of_y (x y : (⟨S4x3x8192, .f32⟩ : BufTy).Contents (Elt Ideal)) (b : Fin 4) (m : Fin 8192) :
    Read.val_main_v16 (F := Ideal) x y (ix2 b m)
      = (Finset.univ : Finset (Fin 8192)).inf fun n => distDot (cloud x) (cloud y) b n m := by
  unfold Read.val_main_v16
  generalize hd : Read.val_main_v14 (F := Ideal) x y = d
  refine (min_middle d b m).trans ?_
  subst hd
  exact Finset.inf_congr rfl fun n _ => dist_at x y b n m

end Cert.ReferenceIdeal.RefValue

end
-- ==== Proof.Bridge.lean ====
/-
  The two idealized programs compute one number. The kernel's program leaves in its two intermediate arrays, for each
  point of one cloud, the squared distance to the nearest point of the other; so does the reference, with the inner
  product subtracted in one piece; on finite inputs the two arrangements agree entry by entry; both programs then average
  each array and add the averages by the same host operations.
-/
import proofs.«160138_j85237920956691_1_alg».proof.Defs
import proofs.«160138_j85237920956691_1_alg».proof.Proof.KernelIdeal.Whole
import proofs.«160138_j85237920956691_1_alg».proof.Proof.KernelIdeal.Value0
import proofs.«160138_j85237920956691_1_alg».proof.Proof.KernelIdeal.Value1
import proofs.«160138_j85237920956691_1_alg».proof.Proof.RefValue
import proofs.«160138_j85237920956691_1_alg».proof.Proof.Gen.Pre_finite_inputs
import Idealize.ShloMosaic.Lib.ReduceAll
import Idealize.ShloMosaic.Lib.StableHlo.Run

set_option maxRecDepth 16384

noncomputable section

namespace Cert.KernelIdeal.Whole

open Idealize.ShloMosaic Idealize.ShloMosaic.TcCoe Idealize.ShloMosaic.ValueIdx
open Idealize.SL.Sem
open Cert.KernelIdeal Cert.KernelIdeal.Gen Cert.Chamfer

variable {F : FTy → Type} [FloatOps F]

/-- The host operations after the two pallas_calls, as one function of the two arrays: the mean of each, added. -/
def meanSum (a b : (⟨S4x8192, .f32⟩ : BufTy).Contents (Elt F)) : (⟨S_, .f32⟩ : BufTy).Contents (Elt F) :=
  addf (Host.divf (Host.reduceAdd a (constant S_ .f32 0x00000000#32) Facts₀.reducesTo_S4x8192_S_d0_1 Facts₀.h_S_) (constant S_ .f32 0x47000000#32))
    (Host.divf (Host.reduceAdd b (constant S_ .f32 0x00000000#32) Facts₀.reducesTo_S4x8192_S_d0_1 Facts₀.h_S_) (constant S_ .f32 0x47000000#32))

variable (m : (ℓ : Loc nD τ sig) → Buf (Elt F) ℓ)

/-- The result buffer at the end is that function of what the two pallas_calls left. -/
theorem W3_result (c : Dev nD) :
    W3 m c (Proc.devRef .tc main_v6) = meanSum (W2 m c (Proc.devRef .tc main_v0)) (W2 m c (Proc.devRef .tc main_v1)) := by
  show StableHlo.after hostOps2 (W2 m c) (Proc.devRef .tc main_v6) = _
  after_results
  rfl

/-- The first call's output array is not touched by the second. -/
theorem W2_v0 (c : Dev nD) : W2 m c (Proc.devRef .tc main_v0) = (Tile0.dat (V0 m) c).arrAt 2 cfg0.N :=
  (W2_of_ne m c main_v0 (by decide)).trans (W1_arr m c 2)
theorem W2_v1 (c : Dev nD) : W2 m c (Proc.devRef .tc main_v1) = (Tile1.dat (V1 m) c).arrAt 2 cfg1.N :=
  W2_arr m c 2

/-- The second call finds the arguments as launched: the first only read them. -/
theorem V1_main_arg0 (c : Dev nD) : V1 m c main_arg0 = m ((c : Thread nD τ).loc main_arg0) :=
  (W1_arr m c 0).trans (((Tile0.dat (V0 m) c).arrAt_in 0 rfl _).trans (Tile0.A_eq (V0 m) c 0))
theorem V1_main_arg1 (c : Dev nD) : V1 m c main_arg1 = m ((c : Thread nD τ).loc main_arg1) :=
  (W1_arr m c 1).trans (((Tile0.dat (V0 m) c).arrAt_in 1 rfl _).trans (Tile0.A_eq (V0 m) c 1))

end Cert.KernelIdeal.Whole

namespace Cert.Proof.Bridge

open Idealize.ShloMosaic Idealize.ShloMosaic.TcCoe Idealize.ShloMosaic.ValueIdx
open Idealize.SL.Sem
open Cert.Chamfer
open Cert.KernelIdeal (nD τ sig main_arg0 main_arg1 main_v0 main_v1 main_v6)

/-! ## Finite inputs are real numbers -/

instance : Subsingleton Cert.Pre_finite_inputs.S_.Idx := ⟨fun a b => funext fun d => d.elim0⟩

/-- A value whose absolute value compares below `+∞` is a real number. -/
theorem real_of_abs_lt {x : EReal} (h : Ideal.cmp .olt (max x (-x)) (Ideal.ofBits .f32 0x7F800000#32) = 1#1) : ∃ r : ℝ, x = (r : EReal) := by
  have hinf : Ideal.ofBits .f32 0x7F800000#32 = (⊤ : EReal) := posInf_eq
  rw [hinf] at h
  induction x using EReal.rec with
  | bot => simp [Ideal.cmp] at h
  | coe r => exact ⟨r, rfl⟩
  | top => simp [Ideal.cmp] at h

/-- Under the precondition every entry of both argument arrays is a real number. -/
theorem inputs_real (x y : FVec Ideal Cert.Pre_finite_inputs.S4x3x8192 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.mp h0
  exact ⟨fun i => real_of_abs_lt (Host.reduce_andi_all _ _ _ _ _ hx i), fun i => real_of_abs_lt (Host.reduce_andi_all _ _ _ _ _ hy i)⟩

/-! ## The two arrays, entry by entry -/

section

variable (m : (ℓ : Loc nD τ sig) → Buf (Elt Ideal) ℓ)

open Cert.KernelIdeal Cert.KernelIdeal.Whole

/-- The first pallas_call's queries are the first argument's points, its keys the second's. -/
theorem clouds0 (c : Dev nD) :
    Tile0.qCloud (V0 m) c = Cert.ReferenceIdeal.RefValue.cloud (m ((c : Thread nD τ).loc main_arg0))
    ∧ Tile0.kCloud (V0 m) c = Cert.ReferenceIdeal.RefValue.cloud (m ((c : Thread nD τ).loc main_arg1)) := ⟨rfl, rfl⟩

/-- The second's queries are the second argument's points, its keys the first's. -/
theorem clouds1 (c : Dev nD) :
    Tile1.qCloud (V1 m) c = Cert.ReferenceIdeal.RefValue.cloud (m ((c : Thread nD τ).loc main_arg1))
    ∧ Tile1.kCloud (V1 m) c = Cert.ReferenceIdeal.RefValue.cloud (m ((c : Thread nD τ).loc main_arg0)) := by
  constructor
  · funext b k n
    show (V1 m c main_arg1 : Cert.KernelIdeal.S4x3x8192.Idx → EReal) (ix3 b k n) = _
    rw [V1_main_arg1]; rfl
  · funext b k n
    show (V1 m c main_arg0 : Cert.KernelIdeal.S4x3x8192.Idx → EReal) (ix3 b k n) = _
    rw [V1_main_arg0]; rfl

/-- On finite inputs the result buffer of the kernel's program holds the reference's result. -/
theorem result_eq (hpre : Cert.Pre_KernelIdeal m) (c : Dev nD) :
    W3 m c (Proc.devRef .tc main_v6)
      = Cert.ReferenceIdeal.Read.val_main_v21 (F := Ideal) (m ((c : Thread nD τ).loc main_arg0)) (m ((c : Thread nD τ).loc main_arg1)) := by
  obtain ⟨hx, hy⟩ := inputs_real _ _ (hpre c)
  have hX : IsReal (Cert.ReferenceIdeal.RefValue.cloud (m ((c : Thread nD τ).loc main_arg0))) := fun b k n => hx _
  have hY : IsReal (Cert.ReferenceIdeal.RefValue.cloud (m ((c : Thread nD τ).loc main_arg1))) := fun b k n => hy _
  have e0 : (Tile0.dat (V0 m) c).arrAt 2 cfg0.N
      = Cert.ReferenceIdeal.Read.val_main_v15 (F := Ideal) (m ((c : Thread nD τ).loc main_arg0)) (m ((c : Thread nD τ).loc main_arg1)) := by
    rw [Tile0.result]
    funext i
    obtain ⟨b, n, rfl⟩ : ∃ (b : Fin 4) (n : Fin 8192), i = ix2 b n := ⟨i 0, i 1, eq_ix2 i⟩
    rw [Cert.ReferenceIdeal.RefValue.nearest_of_x]
    unfold Tile0.nearest
    rw [(clouds0 m c).1, (clouds0 m c).2]
    exact Finset.inf_congr rfl fun mm _ => distStep_eq_distDot hX hY b n mm
  have e1 : (Tile1.dat (V1 m) c).arrAt 2 cfg1.N
      = Cert.ReferenceIdeal.Read.val_main_v16 (F := Ideal) (m ((c : Thread nD τ).loc main_arg0)) (m ((c : Thread nD τ).loc main_arg1)) := by
    rw [Tile1.result]
    funext i
    obtain ⟨b, mm, rfl⟩ : ∃ (b : Fin 4) (mm : Fin 8192), i = ix2 b mm := ⟨i 0, i 1, eq_ix2 i⟩
    rw [Cert.ReferenceIdeal.RefValue.nearest_of_y]
    unfold Tile1.nearest
    rw [(clouds1 m c).1, (clouds1 m c).2]
    exact Finset.inf_congr rfl fun n _ => distStep_swap hX hY b n mm
  rw [W3_result, W2_v0, W2_v1, e0, e1]
  rfl

end

/-! ## The claim's last conjunct -/

theorem algebraic : Cert.algebraic_KernelIdeal_ReferenceIdeal := by
  intro m ρ m' ρ' hpre hagree
  refine ⟨fun c => Cert.KernelIdeal.Whole.W3 m c (Proc.devRef .tc main_v6), ?_, ?_⟩
  · exact (θ_run Cert.KernelIdeal.defs _ _).mono (fun _ h c =>
      ⟨h c _ (Cert.KernelIdeal.Whole.mem_uc main_v6 (by decide)),
       (h c _ (Cert.KernelIdeal.Whole.mem_uc main_arg0 (by decide))).trans (Cert.KernelIdeal.Whole.W3_main_arg0 m c),
       (h c _ (Cert.KernelIdeal.Whole.mem_uc main_arg1 (by decide))).trans (Cert.KernelIdeal.Whole.W3_main_arg1 m c)⟩)
      (Cert.KernelIdeal.Whole.run_all m ρ)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v21_eq, (hagree c).1, (hagree c).2]
    exact (result_eq m hpre c).symm

end Cert.Proof.Bridge

end
-- ==== Proof.lean ====
/-
  The certificate of a Chamfer loss: for two batches of point clouds `x`, `y` (four batches, three coordinates, 8192
  points), the mean over the points of `x` of the squared distance to the nearest point of `y`, plus the same with
  the clouds exchanged.

  The kernel's program computes each nearest-point array by a tiled pass: a grid of 16 × 16 points pairs a tile of
  512 queries with a tile of 512 keys, forms the 512 × 512 squared distances
  `|a|² + |b|² − 2a₀b₀ − 2a₁b₁ − 2a₂b₂`, takes their minimum along the keys, and keeps the running minimum over the
  key tiles in a scratch buffer that is copied to the output block at the last key tile. The reference forms all
  8192 × 8192 distances `|a|² + |b|² − 2⟨a, b⟩` at once and reduces by minimum along either axis. Both then average and add.

  The frames: every execution of either kernel program runs the two tiled passes and the host operations to the end,
  faults nowhere, and only reads its arguments (Kernel/Whole.lean at the word level, KernelIdeal/Whole.lean at the ideal
  values; the invariant of a pass is that the scratch holds the running minimum of the points passed so far). The
  reference's frame is its run with the result dropped. The idealization rewrote nothing. The two idealized programs end
  with one number when the inputs are finite: then the two arrangements of the squared distance are equal reals, the
  minimum over all keys is the minimum over the key tiles of the tiles' minima, and the rest is shared (Bridge.lean).
-/
import proofs.«160138_j85237920956691_1_alg».proof.Defs
import proofs.«160138_j85237920956691_1_alg».proof.Proof.Gen.Kernel
import proofs.«160138_j85237920956691_1_alg».proof.Proof.Gen.KernelIdeal
import proofs.«160138_j85237920956691_1_alg».proof.Proof.Gen.ReferenceIdeal
import proofs.«160138_j85237920956691_1_alg».proof.Proof.Gen.Pre_finite_inputs
import proofs.«160138_j85237920956691_1_alg».proof.Proof.Gen.ReferenceIdeal.Run
import proofs.«160138_j85237920956691_1_alg».proof.Proof.Kernel.Whole
import proofs.«160138_j85237920956691_1_alg».proof.Proof.KernelIdeal.Whole
import proofs.«160138_j85237920956691_1_alg».proof.Proof.Bridge
import Idealize.ShloMosaic.Adequacy
import Idealize.ShloMosaic.Init

noncomputable section

namespace Cert.Proof

open Idealize.ShloMosaic Idealize.SL.Sem

theorem frame_word : Cert.frame_Kernel := fun m ρ _ => Cert.Kernel.Whole.frame m ρ

theorem frame_ideal : Cert.frame_KernelIdeal := fun m ρ _ => Cert.KernelIdeal.Whole.frame m ρ

theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_word, frame_ideal, frame_reference, trivial, Cert.Proof.Bridge.algebraic⟩

end Cert.Proof

end
